-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S_ : Shape := ⟨0, ![]⟩

class Facts : Prop where
  bcast_S_S1024x200x400 : S_.BroadcastsInDim S1024x200x400 (![] : Fin 0 → Fin S1024x200x400.rank)
  reducesTo_S1024x200x400_S_d0_1_2 : S1024x200x400.ReducesTo [0, 1, 2] S_
  h_S_ : 0 < S_.numel
  bcast_S_S1024x200x128 : S_.BroadcastsInDim S1024x200x128 (![] : Fin 0 → Fin S1024x200x128.rank)
  reducesTo_S1024x200x128_S_d0_1_2 : S1024x200x128.ReducesTo [0, 1, 2] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S384 .f32) (main_arg5 : FVec F S384 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x200x400 .f32) (main_arg1 : FVec F S1024x200x128 .f32) (main_arg2 : FVec F S384x256 .f32) (main_arg3 : FVec F S384x128 .f32) (main_arg4 : FVec F S384 .f32) (main_arg5 : FVec F S384 .f32) (main_arg6 : FVec F S128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S1024x200x400 .f32 := Host.absf main_arg0
  let main_cst : FVec F S_ .f32 := constant S_ .f32 0x7F800000#32
  let main_v1 : FVec F S1024x200x400 .f32 := broadcastInDim S1024x200x400 ![] bcast_S_S1024x200x400 main_cst
  let main_v2 : IVec S1024x200x400 1 := cmpf .olt main_v0 main_v1
  let main_c : IVec S_ 1 := constantI S_ 1 1#1
  let main_v3 : IVec S_ 1 := (fun x v => Host.reduce IntOp.andi x v reducesTo_S1024x200x400_S_d0_1_2 h_S_) main_v2 main_c
  let main_v4 : FVec F S1024x200x128 .f32 := Host.absf main_arg1
  let main_cst_0 : FVec F S_ .f32 := constant S_ .f32 0x7F800000#32
  let main_v5 : FVec F S1024x200x128 .f32 := broadcastInDim S1024x200x128 ![] bcast_S_S1024x200x128 main_cst_0
  let main_v6 : IVec S1024x200x128 1 := cmpf .olt main_v4 main_v5
  let main_c_1 : IVec S_ 1 := constantI S_ 1 1#1
  let main_v7 : IVec S_ 1 := (fun x v => Host.reduce IntOp.andi x v reducesTo_S1024x200x128_S_d0_1_2 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_arg9 main_arg10 main_arg11 main_v13 main_v16
-- ==== Kernel.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S1024x200x200 : Shape := ⟨3, ![1024, 200, 200]⟩
abbrev S8x200x200 : Shape := ⟨3, ![8, 200, 200]⟩
abbrev S8x200x128 : Shape := ⟨3, ![8, 200, 128]⟩
abbrev S1600x128 : Shape := ⟨2, ![1600, 128]⟩
abbrev S1x128 : Shape := ⟨2, ![1, 128]⟩
abbrev S1x1x128 : Shape := ⟨3, ![1, 1, 128]⟩
abbrev S8x200x256 : Shape := ⟨3, ![8, 200, 256]⟩
abbrev S1600x256 : Shape := ⟨2, ![1600, 256]⟩
abbrev S1600x384 : Shape := ⟨2, ![1600, 384]⟩
abbrev S1x384 : Shape := ⟨2, ![1, 384]⟩

abbrev nBuf : Space → Nat
  | .hbm => 15
  | .vmem => 18
  | .smem => 0
  | _ => 0

abbrev bufTy : (tb : Table) → Fin (tcTables nBuf tb) → BufTy
  | .hbm, ⟨0, _⟩ => ⟨S1024x200x400, .f32⟩
  | .hbm, ⟨1, _⟩ => ⟨S1024x200x128, .f32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1024x200x200, .f32⟩
  | .hbm, ⟨13, _⟩ => ⟨S1024x200x200, .f32⟩
  | .hbm, ⟨14, _⟩ => ⟨S1024x200x128, .f32⟩
  | .local _ .vmem, ⟨0, _⟩ => ⟨S8x200x200, .f32⟩
  | .local _ .vmem, ⟨1, _⟩ => ⟨S8x200x200, .f32⟩
  | .local _ .vmem, ⟨2, _⟩ => ⟨S8x200x200, .f32⟩
  | .local _ .vmem, ⟨3, _⟩ => ⟨S8x200x200, .f32⟩
  | .local _ .vmem, ⟨4, _⟩ => ⟨S8x200x128, .f32⟩
  | .local _ .vmem, ⟨5, _⟩ => ⟨S8x200x128, .f32⟩
  | .local _ .vmem, ⟨6, _⟩ => ⟨S384x256, .f32⟩
  | .local _ .vmem, ⟨7, _⟩ => ⟨S384x128, .f32⟩
  | .local _ .vmem, ⟨8, _⟩ => ⟨S384, .f32⟩
  | .local _ .vmem, ⟨9, _⟩ => ⟨S384, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S8x200x128, .f32⟩
  | .local _ .vmem, ⟨17, _⟩ => ⟨S8x200x128, .f32⟩
  | _, _ => ⟨S1024x200x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x200x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S1024x200x400_S1024x200x200_0_0_0 : S1024x200x400.Slices ![0, 0, 0] S1024x200x200
  slices_S1024x200x400_S1024x200x200_0_0_200 : S1024x200x400.Slices ![0, 0, 200] S1024x200x200
  inb_S8x200x128_S8x200x128_0_0_0 : ∀ a, (![0, 0, 0] : Fin 3 → Nat) a + S8x200x128.size a ≤ S8x200x128.size a
  h_S8x200x128 : 0 < S8x200x128.numel
  inb_S8x200x200_S8x200x200_0_0_0 : ∀ a, (![0, 0, 0] : Fin 3 → Nat) a + S8x200x200.size a ≤ S8x200x200.size a
  h_S8x200x200 : 0 < S8x200x200.numel
  shapeCasts_S8x200x200_S8x200x200 : S8x200x200.ShapeCasts S8x200x200
  shapeCasts_S8x200x128_S1600x128 : S8x200x128.ShapeCasts S1600x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1600x128 : S1x128.Broadcasts S1600x128
  shapeCasts_S1600x128_S8x200x128 : S1600x128.ShapeCasts S8x200x128
  shapeCasts_S128_S1x1x128 : S128.ShapeCasts S1x1x128
  broadcasts_S1x1x128_S8x200x128 : S1x1x128.Broadcasts S8x200x128
  concatenates_S8x200x128_S8x200x128_S8x200x256_d2 : Shape.Concatenates [S8x200x128, S8x200x128] S8x200x256 2
  shapeCasts_S8x200x256_S1600x256 : S8x200x256.ShapeCasts S1600x256
  inb_S384x256_S384x256_0_0 : ∀ a, (![0, 0] : Fin 2 → Nat) a + S384x256.size a ≤ S384x256.size a
  h_S384x256 : 0 < S384x256.numel
  inb_S384_S384_0 : ∀ a, (![0] : Fin 1 → Nat) a + S384.size a ≤ S384.size a
  h_S384 : 0 < S384.numel
  shapeCasts_S384_S1x384 : S384.ShapeCasts S1x384
  broadcasts_S1x384_S1600x384 : S1x384.Broadcasts S1600x384
  inb_S384x128_S384x128_0_0 : ∀ a, (![0, 0] : Fin 2 → Nat) a + S384x128.size a ≤ S384x128.size a
  h_S384x128 : 0 < S384x128.numel
  slices_S1600x384_o0_0_S1600x128 : S1600x384.Slices ![0, 0] S1600x128
  slices_S1600x384_o0_128_S1600x128 : S1600x384.Slices ![0, 128] S1600x128
  slices_S1600x384_o0_256_S1600x128 : S1600x384.Slices ![0, 256] S1600x128
  dot_S1600x128_S128x128_S1600x128_1_1_0_0_n_n_wf : DotDims.WF S1600x128 S128x128 S1600x128 [1] [1] [0] [0] [] []
  dot_S8x200x200_S8x200x128_S8x200x128_2_1_1_2_0_0_wf : DotDims.WF S8x200x200 S8x200x128 S8x200x128 [2] [1] [1] [2] [0] [0]
  dot_S1600x256_S384x256_S1600x384_1_1_0_0_n_n_wf : DotDims.WF S1600x256 S384x256 S1600x384 [1] [1] [0] [0] [] []
  dot_S1600x128_S384x128_S1600x384_1_1_0_0_n_n_wf : DotDims.WF S1600x128 S384x128 S1600x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x200.size a ≤ S1024x200x200.size a
  hwx0_0 : ∀ i : grid0.Coords, EltTy.bits .f32 = 32 ∨ (Rect.block (s := S1024x200x200) S8x200x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200x200.size a ≤ S1024x200x200.size a
  hwx0_1 : ∀ i : grid0.Coords, EltTy.bits .f32 = 32 ∨ (Rect.block (s := S1024x200x200) S8x200x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x200x128.size a ≤ S1024x200x128.size a
  hwx0_2 : ∀ i : grid0.Coords, EltTy.bits .f32 = 32 ∨ (Rect.block (s := S1024x200x128) S8x200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x128.size a ≤ S384x128.size a
  hwx0_4 : ∀ i : grid0.Coords, EltTy.bits .f32 = 32 ∨ (Rect.block (s := S384x128) S384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384.size a ≤ S384.size a
  hwx0_5 : ∀ i : grid0.Coords, EltTy.bits .f32 = 32 ∨ (Rect.block (s := S384) S384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384.size a ≤ S384.size a
  hwx0_6 : ∀ i : grid0.Coords, EltTy.bits .f32 = 32 ∨ (Rect.block (s := S384) S384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x200x128.size a ≤ S1024x200x128.size a
  hwx0_13 : ∀ i : grid0.Coords, EltTy.bits .f32 = 32 ∨ (Rect.block (s := S1024x200x128) S8x200x128.size (cc0_transform_13 i) (hinb0_13 i)).WholeWords (EltTy.packing .f32)

variable [Facts₀]

def dot_S1600x128_S128x128_S1600x128_1_1_0_0_n_n : DotDims S1600x128 S128x128 S1600x128 where
  lhsContracting := [1]
  rhsContracting := [1]
  lhsNonContracting := [0]
  rhsNonContracting := [0]
  lhsBatch := []
  rhsBatch := []
  wf := dot_S1600x128_S128x128_S1600x128_1_1_0_0_n_n_wf
def dot_S8x200x200_S8x200x128_S8x200x128_2_1_1_2_0_0 : DotDims S8x200x200 S8x200x128 S8x200x128 where
  lhsContracting := [2]
  rhsContracting := [1]
  lhsNonContracting := [1]
  rhsNonContracting := [2]
  lhsBatch := [0]
  rhsBatch := [0]
  wf := dot_S8x200x200_S8x200x128_S8x200x128_2_1_1_2_0_0_wf
def dot_S1600x256_S384x256_S1600x384_1_1_0_0_n_n : DotDims S1600x256 S384x256 S1600x384 where
  lhsContracting := [1]
  rhsContracting := [1]
  lhsNonContracting := [0]
  rhsNonContracting := [0]
  lhsBatch := []
  rhsBatch := []
  wf := dot_S1600x256_S384x256_S1600x384_1_1_0_0_n_n_wf
def dot_S1600x128_S384x128_S1600x384_1_1_0_0_n_n : DotDims S1600x128 S384x128 S1600x384 where
  lhsContracting := [1]
  rhsContracting := [1]
  lhsNonContracting := [0]
  rhsNonContracting := [0]
  lhsBatch := []
  rhsBatch := []
  wf := dot_S1600x128_S384x128_S1600x384_1_1_0_0_n_n_wf

abbrev win0_0 : Pipeline.Window sig grid0 :=
  Pipeline.Window.ofSpec (Memref.whole main_v0) S8x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S8x200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S1024x200x200 : Shape := ⟨3, ![1024, 200, 200]⟩
abbrev S1x1x128 : Shape := ⟨3, ![1, 1, 128]⟩
abbrev S1024x200x256 : Shape := ⟨3, ![1024, 200, 256]⟩
abbrev S1024x200x384 : Shape := ⟨3, ![1024, 200, 384]⟩
abbrev S1x1x384 : Shape := ⟨3, ![1, 1, 384]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S1024x200x400, .f32⟩
  | .hbm, ⟨1, _⟩ => ⟨S1024x200x128, .f32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1024x200x200, .f32⟩
  | .hbm, ⟨13, _⟩ => ⟨S1024x200x200, .f32⟩
  | .hbm, ⟨14, _⟩ => ⟨S1024x200x128, .f32⟩
  | .hbm, ⟨15, _⟩ => ⟨S1x1x128, .f32⟩
  | .hbm, ⟨16, _⟩ => ⟨S1024x200x128, .f32⟩
  | .hbm, ⟨17, _⟩ => ⟨S1024x200x128, .f32⟩
  | .hbm, ⟨18, _⟩ => ⟨S1024x200x128, .f32⟩
  | .hbm, ⟨19, _⟩ => ⟨S1x1x128, .f32⟩
  | .hbm, ⟨20, _⟩ => ⟨S1024x200x128, .f32⟩
  | .hbm, ⟨21, _⟩ => ⟨S1024x200x128, .f32⟩
  | .hbm, ⟨22, _⟩ => ⟨S1024x200x128, .f32⟩
  | .hbm, ⟨23, _⟩ => ⟨S1x1x128, .f32⟩
  | .hbm, ⟨24, _⟩ => ⟨S1024x200x128, .f32⟩
  | .hbm, ⟨25, _⟩ => ⟨S1024x200x128, .f32⟩
  | .hbm, ⟨26, _⟩ => ⟨S1024x200x128, .f32⟩
  | .hbm, ⟨27, _⟩ => ⟨S1x1x128, .f32⟩
  | .hbm, ⟨28, _⟩ => ⟨S1024x200x128, .f32⟩
  | .hbm, ⟨29, _⟩ => ⟨S1024x200x128, .f32⟩
  | .hbm, ⟨30, _⟩ => ⟨S1024x200x256, .f32⟩
  | .hbm, ⟨31, _⟩ => ⟨S1024x200x384, .f32⟩
  | .hbm, ⟨32, _⟩ => ⟨S1x1x384, .f32⟩
  | .hbm, ⟨33, _⟩ => ⟨S1024x200x384, .f32⟩
  | .hbm, ⟨34, _⟩ => ⟨S1024x200x384, .f32⟩
  | .hbm, ⟨35, _⟩ => ⟨S1024x200x384, .f32⟩
  | .hbm, ⟨36, _⟩ => ⟨S1x1x384, .f32⟩
  | .hbm, ⟨37, _⟩ => ⟨S1024x200x384, .f32⟩
  | .hbm, ⟨38, _⟩ => ⟨S1024x200x384, .f32⟩
  | .hbm, ⟨39, _⟩ => ⟨S1024x200x128, .f32⟩
  | .hbm, ⟨40, _⟩ => ⟨S1024x200x128, .f32⟩
  | .hbm, ⟨41, _⟩ => ⟨S1024x200x128, .f32⟩
  | .hbm, ⟨42, _⟩ => ⟨S1024x200x128, .f32⟩
  | .hbm, ⟨43, _⟩ => ⟨S1024x200x128, .f32⟩
  | .hbm, ⟨44, _⟩ => ⟨S1024x200x128, .f32⟩
  | .hbm, ⟨45, _⟩ => ⟨S1024x200x128, .f32⟩
  | .hbm, ⟨46, _⟩ => ⟨S1024x200x128, .f32⟩
  | .hbm, ⟨47, _⟩ => ⟨S1024x200x128, .f32⟩
  | .hbm, ⟨48, _⟩ => ⟨S_, .f32⟩
  | .hbm, ⟨49, _⟩ => ⟨S1024x200x128, .f32⟩
  | .hbm, ⟨50, _⟩ => ⟨S1024x200x128, .f32⟩
  | .hbm, ⟨51, _⟩ => ⟨S_, .f32⟩
  | .hbm, ⟨52, _⟩ => ⟨S1024x200x128, .f32⟩
  | .hbm, ⟨53, _⟩ => ⟨S1024x200x128, .f32⟩
  | .hbm, ⟨54, _⟩ => ⟨S1024x200x128, .f32⟩
  | .hbm, ⟨55, _⟩ => ⟨S1024x200x128, .f32⟩
  | .hbm, ⟨56, _⟩ => ⟨S1024x200x128, .f32⟩
  | .hbm, ⟨57, _⟩ => ⟨S_, .f32⟩
  | .hbm, ⟨58, _⟩ => ⟨S1024x200x128, .f32⟩
  | .hbm, ⟨59, _⟩ => ⟨S1024x200x128, .f32⟩
  | .hbm, ⟨60, _⟩ => ⟨S_, .f32⟩
  | .hbm, ⟨61, _⟩ => ⟨S1024x200x128, .f32⟩
  | .hbm, ⟨62, _⟩ => ⟨S1024x200x128, .f32⟩
  | .hbm, ⟨63, _⟩ => ⟨S1024x200x128, .f32⟩
  | .hbm, ⟨64, _⟩ => ⟨S1024x200x128, .f32⟩
  | .hbm, ⟨65, _⟩ => ⟨S1024x200x128, .f32⟩
  | .hbm, ⟨66, _⟩ => ⟨S1024x200x128, .f32⟩
  | .hbm, ⟨67, _⟩ => ⟨S1024x200x128, .f32⟩
  | .hbm, ⟨68, _⟩ => ⟨S1024x200x128, .f32⟩
  | _, _ => ⟨S1024x200x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_1 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  slices_S1024x200x400_S1024x200x200_0_0_0 : S1024x200x400.Slices ![0, 0, 0] S1024x200x200
  slices_S1024x200x400_S1024x200x200_0_0_200 : S1024x200x400.Slices ![0, 0, 200] S1024x200x200
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  concatenates_S1024x200x128_S1024x200x128_S1024x200x256_d2 : Shape.Concatenates [S1024x200x128, S1024x200x128] S1024x200x256 2
  bcast_S384_S1x1x384_2 : S384.BroadcastsInDim S1x1x384 (![2] : Fin 1 → Fin S1x1x384.rank)
  bcast_S1x1x384_S1024x200x384_0_1_2 : S1x1x384.BroadcastsInDim S1024x200x384 (![0, 1, 2] : Fin 3 → Fin S1024x200x384.rank)
  slices_S1024x200x384_S1024x200x128_0_0_0 : S1024x200x384.Slices ![0, 0, 0] S1024x200x128
  slices_S1024x200x384_S1024x200x128_0_0_128 : S1024x200x384.Slices ![0, 0, 128] S1024x200x128
  slices_S1024x200x384_S1024x200x128_0_0_256 : S1024x200x384.Slices ![0, 0, 256] S1024x200x128
  bcast_S_S1024x200x128 : S_.BroadcastsInDim S1024x200x128 (![] : Fin 0 → Fin S1024x200x128.rank)
  dot_S1024x200x128_S128x128_S1024x200x128_2_1_01_0_n_n_wf : DotDims.WF S1024x200x128 S128x128 S1024x200x128 [2] [1] [0, 1] [0] [] []
  dot_S1024x200x200_S1024x200x128_S1024x200x128_2_1_1_2_0_0_wf : DotDims.WF S1024x200x200 S1024x200x128 S1024x200x128 [2] [1] [1] [2] [0] [0]
  dot_S1024x200x256_S384x256_S1024x200x384_2_1_01_0_n_n_wf : DotDims.WF S1024x200x256 S384x256 S1024x200x384 [2] [1] [0, 1] [0] [] []
  dot_S1024x200x128_S384x128_S1024x200x384_2_1_01_0_n_n_wf : DotDims.WF S1024x200x128 S384x128 S1024x200x384 [2] [1] [0, 1] [0] [] []

variable [Facts₀]

def dot_S1024x200x128_S128x128_S1024x200x128_2_1_01_0_n_n : DotDims S1024x200x128 S128x128 S1024x200x128 where
  lhsContracting := [2]
  rhsContracting := [1]
  lhsNonContracting := [0, 1]
  rhsNonContracting := [0]
  lhsBatch := []
  rhsBatch := []
  wf := dot_S1024x200x128_S128x128_S1024x200x128_2_1_01_0_n_n_wf
def dot_S1024x200x200_S1024x200x128_S1024x200x128_2_1_1_2_0_0 : DotDims S1024x200x200 S1024x200x128 S1024x200x128 where
  lhsContracting := [2]
  rhsContracting := [1]
  lhsNonContracting := [1]
  rhsNonContracting := [2]
  lhsBatch := [0]
  rhsBatch := [0]
  wf := dot_S1024x200x200_S1024x200x128_S1024x200x128_2_1_1_2_0_0_wf
def dot_S1024x200x256_S384x256_S1024x200x384_2_1_01_0_n_n : DotDims S1024x200x256 S384x256 S1024x200x384 where
  lhsContracting := [2]
  rhsContracting := [1]
  lhsNonContracting := [0, 1]
  rhsNonContracting := [0]
  lhsBatch := []
  rhsBatch := []
  wf := dot_S1024x200x256_S384x256_S1024x200x384_2_1_01_0_n_n_wf
def dot_S1024x200x128_S384x128_S1024x200x384_2_1_01_0_n_n : DotDims S1024x200x128 S384x128 S1024x200x384 where
  lhsContracting := [2]
  rhsContracting := [1]
  lhsNonContracting := [0, 1]
  rhsNonContracting := [0]
  lhsBatch := []
  rhsBatch := []
  wf := dot_S1024x200x128_S384x128_S1024x200x384_2_1_01_0_n_n_wf

class Facts : Prop extends Facts₀ where

variable [Facts]
-- ==== Proof.Spec.lean ====
/-
  The mathematics of one step of a gated graph cell, stated once for a batch of `B` graphs of 200 nodes with
  128 hidden features, over the extended reals.

  Every stage acts on each graph of the batch by itself:
    * `lin x W b`      — along the feature axis, `x · Wᵀ + b`:  (b, l, n) ↦ Σₖ x(b,l,k) · W(n,k) + b(n);
    * `agg a e b`      — a graph's adjacency applied to its node features,
                         (b, l, n) ↦ Σₘ a(b,l,m) · e(b,m,n) + b(n);
    * `cat p q`        — two feature blocks side by side;
    * `gates gi gh h`  — the reset gate r = σ(giᵣ + ghᵣ), the update gate z = σ(gi_z + gh_z), the candidate
                         n = tanh(giₙ + r · ghₙ), and the new state n + z · (h − n), where the three gate
                         blocks are columns 0–127, 128–255 and 256–383 of the 384-wide rows.
  `cell` composes them.  Because no stage mixes two graphs, restricting the arguments to graphs 8t … 8t+7
  (`rows t`) and then running the cell is running the cell and then restricting: `cell_rows`.
-/
import Idealize.ShloMosaic.PureOps.Ideal
import Idealize.ShloMosaic.Lib.ValueIdx

noncomputable section

namespace Cert.Cell

open Idealize.ShloMosaic Idealize.ShloMosaic.ValueIdx

/-- Arrays of extended reals of rank three, two and one. -/
abbrev Arr3 (B R C : Nat) : Type := (⟨3, ![B, R, C]⟩ : Shape).Idx → EReal
abbrev Arr2 (R C : Nat) : Type := (⟨2, ![R, C]⟩ : Shape).Idx → EReal
abbrev Arr1 (N : Nat) : Type := (⟨1, ![N]⟩ : Shape).Idx → EReal

/-- `x · Wᵀ + b` along the last axis. -/
def lin {B K N : Nat} (x : Arr3 B 200 K) (W : Arr2 N K) (b : Arr1 N) : Arr3 B 200 N :=
  fun i => (∑ k : Fin K, x (ix3 (i 0) (i 1) k) * W (ix2 (i 2) k)) + b (ix1 (i 2))

/-- Each graph's adjacency block applied to that graph's node features, plus a bias on the feature axis. -/
def agg {B : Nat} (a : Arr3 B 200 200) (e : Arr3 B 200 128) (b : Arr1 128) : Arr3 B 200 128 :=
  fun i => (∑ k : Fin 200, a (ix3 (i 0) (i 1) k) * e (ix3 (i 0) k (i 2))) + b (ix1 (i 2))

/-- Two 128-wide feature blocks side by side. -/
def cat {B : Nat} (p q : Arr3 B 200 128) : Arr3 B 200 256 := fun i =>
  if hlt : (i 2).val < 128 then p (ix3 (i 0) (i 1) ⟨(i 2).val, hlt⟩)
  else q (ix3 (i 0) (i 1) ⟨(i 2).val - 128, by have h2 : (i 2).val < 256 := (i 2).isLt; omega⟩)

/-- Column `o + g` of a 384-wide row, for `g < 128`. -/
def col (o : Nat) (ho : o + 128 ≤ 384) (g : Fin 128) : Fin 384 := ⟨o + g.val, by have := g.isLt; omega⟩

/-- The three gates and the new state. -/
def gates {B : Nat} (gi gh : Arr3 B 200 384) (h : Arr3 B 200 128) : Arr3 B 200 128 := fun i =>
  let r := Ideal.logistic (gi (ix3 (i 0) (i 1) (col 0 (by omega) (i 2))) + gh (ix3 (i 0) (i 1) (col 0 (by omega) (i 2))))
  let z := Ideal.logistic (gi (ix3 (i 0) (i 1) (col 128 (by omega) (i 2))) + gh (ix3 (i 0) (i 1) (col 128 (by omega) (i 2))))
  let n := Ideal.tanh (gi (ix3 (i 0) (i 1) (col 256 (by omega) (i 2))) + r * gh (ix3 (i 0) (i 1) (col 256 (by omega) (i 2))))
  n + z * (h i - n)

/-- Columns `o … o+199` of the 400-wide adjacency rows: the incoming half at `o = 0`, the outgoing at `o = 200`. -/
def half (o : Nat) (ho : o + 200 ≤ 400) {B : Nat} (A : Arr3 B 200 400) : Arr3 B 200 200 := fun i =>
  A (ix3 (i 0) (i 1) ⟨o + (i 2).val, by have h2 : (i 2).val < 200 := (i 2).isLt; omega⟩)

/-- One step of the cell on a batch of `B` graphs. -/
def cell {B : Nat} (aIn aOut : Arr3 B 200 200) (h : Arr3 B 200 128) (wih : Arr2 384 256) (whh : Arr2 384 128)
    (bih bhh : Arr1 384) (biah boah : Arr1 128) (wein : Arr2 128 128) (bein : Arr1 128) (weout : Arr2 128 128)
    (beout : Arr1 128) : Arr3 B 200 128 :=
  gates (lin (cat (agg aIn (lin h wein bein) biah) (agg aOut (lin h weout beout) boah)) wih bih) (lin h whh bhh) h

/-- Graph `8t + b` of the batch of 1024. -/
def brow (t : Fin 128) (b : Fin 8) : Fin 1024 := ⟨8 * t.val + b.val, by have := t.isLt; have := b.isLt; omega⟩

/-- Graphs `8t … 8t+7` of a batch of 1024. -/
def rows {C : Nat} (t : Fin 128) (Y : Arr3 1024 200 C) : Arr3 8 200 C := fun j => Y (ix3 (brow t (j 0)) (j 1) (j 2))

/-- The cell acts on each graph by itself, so it commutes with restriction to eight graphs. -/
theorem cell_rows (t : Fin 128) (aIn aOut : Arr3 1024 200 200) (h : Arr3 1024 200 128) (wih : Arr2 384 256)
    (whh : Arr2 384 128) (bih bhh : Arr1 384) (biah boah : Arr1 128) (wein : Arr2 128 128) (bein : Arr1 128)
    (weout : Arr2 128 128) (beout : Arr1 128) :
    cell (rows t aIn) (rows t aOut) (rows t h) wih whh bih bhh biah boah wein bein weout beout
      = rows t (cell aIn aOut h wih whh bih bhh biah boah wein bein weout beout) := by
  funext j
  rfl

end Cert.Cell

end
-- ==== Proof.BodyMessages.lean ====
/-
  The first part of the kernel body on one block of eight graphs: the two edge maps, the two aggregations, side by side.
-/
import proofs.«142575_j24060406792471_1_alg».proof.Proof.Spec
import proofs.«142575_j24060406792471_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.TcCoe Idealize.ShloMosaic.ValueIdx Cert.KernelIdeal Cert.KernelIdeal.Gen Cert.Cell

namespace Messages

/-! ## The plain product `[1600,128] × [128,128]ᵀ`: its operands' indices axis by axis, and the product at an index -/

/-- On the row axis the left operand's index is the output's row. -/
theorem lhs_edge_0 (i : S1600x128.Idx) (q : dot_S1600x128_S128x128_S1600x128_1_1_0_0_n_n.contr.Idx) :
    (dot_S1600x128_S128x128_S1600x128_1_1_0_0_n_n.lhsIdx i q 0).val = (i 0).val := by
  unfold DotDims.lhsIdx
  rw [dif_neg (show ¬(0 : Fin S1600x128.rank) ∈ dot_S1600x128_S128x128_S1600x128_1_1_0_0_n_n.lhsBatch by decide), dif_pos (show (0 : Fin S1600x128.rank) ∈ dot_S1600x128_S128x128_S1600x128_1_1_0_0_n_n.lhsNonContracting by decide)]
  rfl
theorem lhs_edge_1 (i : S1600x128.Idx) (q : dot_S1600x128_S128x128_S1600x128_1_1_0_0_n_n.contr.Idx) :
    (dot_S1600x128_S128x128_S1600x128_1_1_0_0_n_n.lhsIdx i q 1).val = (q ⟨0, by decide⟩).val :=
  dot_S1600x128_S128x128_S1600x128_1_1_0_0_n_n.lhsIdx_val_of_single rfl i q
theorem rhs_edge_0 (i : S1600x128.Idx) (q : dot_S1600x128_S128x128_S1600x128_1_1_0_0_n_n.contr.Idx) :
    (dot_S1600x128_S128x128_S1600x128_1_1_0_0_n_n.rhsIdx i q 0).val = (i 1).val := by
  unfold DotDims.rhsIdx
  rw [dif_neg (show ¬(0 : Fin S128x128.rank) ∈ dot_S1600x128_S128x128_S1600x128_1_1_0_0_n_n.rhsBatch by decide), dif_pos (show (0 : Fin S128x128.rank) ∈ dot_S1600x128_S128x128_S1600x128_1_1_0_0_n_n.rhsNonContracting by decide)]
  rfl
theorem rhs_edge_1 (i : S1600x128.Idx) (q : dot_S1600x128_S128x128_S1600x128_1_1_0_0_n_n.contr.Idx) :
    (dot_S1600x128_S128x128_S1600x128_1_1_0_0_n_n.rhsIdx i q 1).val = (q ⟨0, by decide⟩).val :=
  dot_S1600x128_S128x128_S1600x128_1_1_0_0_n_n.rhsIdx_val_of_single rfl i q

/-- The plain product into the zero accumulator at row `r`, column `n`: the sum over `k` of `X(r,k) · W(n,k)`. -/
theorem edge_matmul_apply (X : FVec Ideal S1600x128 .bf16) (W : FVec Ideal S128x128 .bf16) (r : Fin 1600) (n : Fin 128) :
    matmul dot_S1600x128_S128x128_S1600x128_1_1_0_0_n_n none X W (constant S1600x128 .f32 0x00000000#32) (ix2 r n)
      = ∑ k : Fin 128, X (ix2 r k) * W (ix2 n k) := by
  simp only [matmul]
  rw [Ideal.matmul_constant_zero_apply, ← Equiv.sum_comp (ValueIdx.contrEquiv1 dot_S1600x128_S128x128_S1600x128_1_1_0_0_n_n 128 rfl rfl).symm]
  refine Finset.sum_congr rfl fun k _ => ?_
  have hk := ValueIdx.contrEquiv1_symm_val dot_S1600x128_S128x128_S1600x128_1_1_0_0_n_n 128 rfl rfl k
  have el : dot_S1600x128_S128x128_S1600x128_1_1_0_0_n_n.lhsIdx (ix2 r n) ((ValueIdx.contrEquiv1 dot_S1600x128_S128x128_S1600x128_1_1_0_0_n_n 128 rfl rfl).symm k) = ix2 r k := funext fun a => Fin.ext (by
    match a with
    | ⟨0, _⟩ => exact lhs_edge_0 _ _
    | ⟨1, _⟩ => exact (lhs_edge_1 _ _).trans hk)
  have er : dot_S1600x128_S128x128_S1600x128_1_1_0_0_n_n.rhsIdx (ix2 r n) ((ValueIdx.contrEquiv1 dot_S1600x128_S128x128_S1600x128_1_1_0_0_n_n 128 rfl rfl).symm k) = ix2 n k := funext fun a => Fin.ext (by
    match a with
    | ⟨0, _⟩ => exact rhs_edge_0 _ _
    | ⟨1, _⟩ => exact (rhs_edge_1 _ _).trans hk)
  rw [el, er]

/-! ## The batched product `[8,200,200] × [8,200,128]`: its operands' indices axis by axis, and the product at an index -/

theorem lhs_agg_0 (i : S8x200x128.Idx) (q : dot_S8x200x200_S8x200x128_S8x200x128_2_1_1_2_0_0.contr.Idx) :
    (dot_S8x200x200_S8x200x128_S8x200x128_2_1_1_2_0_0.lhsIdx i q 0).val = (i 0).val := by
  unfold DotDims.lhsIdx
  rw [dif_pos (show (0 : Fin S8x200x200.rank) ∈ dot_S8x200x200_S8x200x128_S8x200x128_2_1_1_2_0_0.lhsBatch by decide)]
  rfl
theorem lhs_agg_1 (i : S8x200x128.Idx) (q : dot_S8x200x200_S8x200x128_S8x200x128_2_1_1_2_0_0.contr.Idx) :
    (dot_S8x200x200_S8x200x128_S8x200x128_2_1_1_2_0_0.lhsIdx i q 1).val = (i 1).val := by
  unfold DotDims.lhsIdx
  rw [dif_neg (show ¬(1 : Fin S8x200x200.rank) ∈ dot_S8x200x200_S8x200x128_S8x200x128_2_1_1_2_0_0.lhsBatch by decide), dif_pos (show (1 : Fin S8x200x200.rank) ∈ dot_S8x200x200_S8x200x128_S8x200x128_2_1_1_2_0_0.lhsNonContracting by decide)]
  rfl
theorem lhs_agg_2 (i : S8x200x128.Idx) (q : dot_S8x200x200_S8x200x128_S8x200x128_2_1_1_2_0_0.contr.Idx) :
    (dot_S8x200x200_S8x200x128_S8x200x128_2_1_1_2_0_0.lhsIdx i q 2).val = (q ⟨0, by decide⟩).val :=
  dot_S8x200x200_S8x200x128_S8x200x128_2_1_1_2_0_0.lhsIdx_val_of_single rfl i q
theorem rhs_agg_0 (i : S8x200x128.Idx) (q : dot_S8x200x200_S8x200x128_S8x200x128_2_1_1_2_0_0.contr.Idx) :
    (dot_S8x200x200_S8x200x128_S8x200x128_2_1_1_2_0_0.rhsIdx i q 0).val = (i 0).val := by
  unfold DotDims.rhsIdx
  rw [dif_pos (show (0 : Fin S8x200x128.rank) ∈ dot_S8x200x200_S8x200x128_S8x200x128_2_1_1_2_0_0.rhsBatch by decide)]
  rfl
theorem rhs_agg_1 (i : S8x200x128.Idx) (q : dot_S8x200x200_S8x200x128_S8x200x128_2_1_1_2_0_0.contr.Idx) :
    (dot_S8x200x200_S8x200x128_S8x200x128_2_1_1_2_0_0.rhsIdx i q 1).val = (q ⟨0, by decide⟩).val :=
  dot_S8x200x200_S8x200x128_S8x200x128_2_1_1_2_0_0.rhsIdx_val_of_single rfl i q
theorem rhs_agg_2 (i : S8x200x128.Idx) (q : dot_S8x200x200_S8x200x128_S8x200x128_2_1_1_2_0_0.contr.Idx) :
    (dot_S8x200x200_S8x200x128_S8x200x128_2_1_1_2_0_0.rhsIdx i q 2).val = (i 2).val := by
  unfold DotDims.rhsIdx
  rw [dif_neg (show ¬(2 : Fin S8x200x128.rank) ∈ dot_S8x200x200_S8x200x128_S8x200x128_2_1_1_2_0_0.rhsBatch by decide), dif_pos (show (2 : Fin S8x200x128.rank) ∈ dot_S8x200x200_S8x200x128_S8x200x128_2_1_1_2_0_0.rhsNonContracting by decide)]
  rfl

/-- The batched product into the zero accumulator at graph `b`, node `l`, feature `n`: the sum over `m` of
    `A(b,l,m) · E(b,m,n)`. -/
theorem agg_matmul_apply (A : FVec Ideal S8x200x200 .bf16) (E : FVec Ideal S8x200x128 .bf16) (b : Fin 8) (l : Fin 200) (n : Fin 128) :
    matmul dot_S8x200x200_S8x200x128_S8x200x128_2_1_1_2_0_0 none A E (constant S8x200x128 .f32 0x00000000#32) (ix3 b l n)
      = ∑ m : Fin 200, A (ix3 b l m) * E (ix3 b m n) := by
  simp only [matmul]
  rw [Ideal.matmul_constant_zero_apply, ← Equiv.sum_comp (ValueIdx.contrEquiv1 dot_S8x200x200_S8x200x128_S8x200x128_2_1_1_2_0_0 200 rfl rfl).symm]
  refine Finset.sum_congr rfl fun k _ => ?_
  have hk := ValueIdx.contrEquiv1_symm_val dot_S8x200x200_S8x200x128_S8x200x128_2_1_1_2_0_0 200 rfl rfl k
  have el : dot_S8x200x200_S8x200x128_S8x200x128_2_1_1_2_0_0.lhsIdx (ix3 b l n) ((ValueIdx.contrEquiv1 dot_S8x200x200_S8x200x128_S8x200x128_2_1_1_2_0_0 200 rfl rfl).symm k) = ix3 b l k := funext fun a => Fin.ext (by
    match a with
    | ⟨0, _⟩ => exact lhs_agg_0 _ _
    | ⟨1, _⟩ => exact lhs_agg_1 _ _
    | ⟨2, _⟩ => exact (lhs_agg_2 _ _).trans hk)
  have er : dot_S8x200x200_S8x200x128_S8x200x128_2_1_1_2_0_0.rhsIdx (ix3 b l n) ((ValueIdx.contrEquiv1 dot_S8x200x200_S8x200x128_S8x200x128_2_1_1_2_0_0 200 rfl rfl).symm k) = ix3 b k n := funext fun a => Fin.ext (by
    match a with
    | ⟨0, _⟩ => exact rhs_agg_0 _ _
    | ⟨1, _⟩ => exact (rhs_agg_1 _ _).trans hk
    | ⟨2, _⟩ => exact rhs_agg_2 _ _)
  rw [el, er]

/-! ## The views and the broadcast biases at an index -/

/-- Row `200·b + l` of the flat view. -/
def frow (b : Fin 8) (l : Fin 200) : Fin 1600 := ⟨200 * b.val + l.val, by have := b.isLt; have := l.isLt; omega⟩

/-- The block `[8,200,128]` viewed `[1600,128]`: row `200·b + l` is node `l` of graph `b`. -/
theorem flat_apply {α : Type} (x : S8x200x128.Idx → α) (b : Fin 8) (l : Fin 200) (k : Fin 128) :
    shapeCast S1600x128 x shapeCasts_S8x200x128_S1600x128 (ix2 (frow b l) k) = x (ix3 b l k) :=
  shapeCast_apply x _ _ (ix3 b l k) (by
    rw [Shape.rowMajor_val_three, Shape.rowMajor_val_two]
    show (b.val * 200 + l.val) * 128 + k.val = (200 * b.val + l.val) * 128 + k.val
    omega)

/-- The flat `[1600,128]` array viewed `[8,200,128]`: node `l` of graph `b` is row `200·b + l`. -/
theorem unflat_apply {α : Type} (y : S1600x128.Idx → α) (b : Fin 8) (l : Fin 200) (n : Fin 128) :
    shapeCast S8x200x128 y shapeCasts_S1600x128_S8x200x128 (ix3 b l n) = y (ix2 (frow b l) n) :=
  shapeCast_apply y _ _ (ix2 (frow b l) n) (by
    rw [Shape.rowMajor_val_three, Shape.rowMajor_val_two]
    show (200 * b.val + l.val) * 128 + n.val = (b.val * 200 + l.val) * 128 + n.val
    omega)

/-- A bias on the feature axis broadcast over the rows of the flat view. -/
theorem bias2_apply {α : Type} (v : S128.Idx → α) (r : Fin 1600) (n : Fin 128) :
    broadcastTo S1600x128 (shapeCast S1x128 v shapeCasts_S128_S1x128) broadcasts_S1x128_S1600x128 (ix2 r n) = v (ix1 n) :=
  (broadcastTo_1b_ab_apply _ _ r n).trans (shapeCast_a_1a_apply v _ 0 n)

/-- A bias on the feature axis broadcast over the graphs and nodes of a block. -/
theorem bias3_apply {α : Type} (v : S128.Idx → α) (b : Fin 8) (l : Fin 200) (n : Fin 128) :
    broadcastTo S8x200x128 (shapeCast S1x1x128 v shapeCasts_S128_S1x1x128) broadcasts_S1x1x128_S8x200x128 (ix3 b l n) = v (ix1 n) := by
  refine (broadcastTo_apply _ _ (ix3 b l n) (ix3 (0 : Fin 1) (0 : Fin 1) n) fun ax => ?_).trans ?_
  · match ax with
    | ⟨0, _⟩ => rfl
    | ⟨1, _⟩ => rfl
    | ⟨2, _⟩ => rfl
  · refine shapeCast_apply v _ _ (ix1 n) ?_
    rw [Shape.rowMajor_val_three, Shape.rowMajor_val_one]
    show n.val = (0 * 1 + 0) * 128 + n.val
    omega

/-! ## The three stages as the specification's functions -/

/-- An edge map on the block: the flat view times `Wᵀ`, plus the bias on the feature axis, viewed as a block again,
    is `lin`. -/
theorem edge_eq (h : Vec Ideal S8x200x128 .f32) (W : Vec Ideal S128x128 .f32) (bv : Vec Ideal S128 .f32) :
    shapeCast S8x200x128 (addf (matmul dot_S1600x128_S128x128_S1600x128_1_1_0_0_n_n none (k0_pay3 (F := Ideal) h) (truncf .bf16 W bitsLt_bf16_f32) (constant S1600x128 .f32 0x00000000#32))
      (broadcastTo S1600x128 (shapeCast S1x128 bv shapeCasts_S128_S1x128) broadcasts_S1x128_S1600x128)) shapeCasts_S1600x128_S8x200x128
      = lin h W bv := by
  funext j
  obtain ⟨b, l, n, rfl⟩ : ∃ b l n, j = ix3 b l n := ⟨j 0, j 1, j 2, eq_ix3 j⟩
  rw [unflat_apply, addf_apply, edge_matmul_apply, bias2_apply]
  show _ = (∑ k : Fin 128, h (ix3 b l k) * W (ix2 n k)) + bv (ix1 n)
  refine congrArg (· + bv (ix1 n)) (Finset.sum_congr rfl fun k _ => ?_)
  unfold k0_pay3 k0_pay2
  rw [truncf_apply, truncf_apply, flat_apply]

/-- An aggregation on the block: each graph's adjacency times its node features, plus the bias on the feature axis,
    is `agg`. -/
theorem agg_eq (a : Vec Ideal S8x200x200 .f32) (e : FVec Ideal S8x200x128 .f32) (bv : Vec Ideal S128 .f32) :
    addf (matmul dot_S8x200x200_S8x200x128_S8x200x128_2_1_1_2_0_0 none (truncf .bf16 (shapeCast S8x200x200 a shapeCasts_S8x200x200_S8x200x200) bitsLt_bf16_f32)
        (truncf .bf16 e bitsLt_bf16_f32) (constant S8x200x128 .f32 0x00000000#32))
      (broadcastTo S8x200x128 (shapeCast S1x1x128 bv shapeCasts_S128_S1x1x128) broadcasts_S1x1x128_S8x200x128)
      = agg a e bv := by
  funext j
  obtain ⟨b, l, n, rfl⟩ : ∃ b l n, j = ix3 b l n := ⟨j 0, j 1, j 2, eq_ix3 j⟩
  rw [addf_apply, agg_matmul_apply, bias3_apply, shapeCast_self]
  rfl

/-- The two blocks joined along the feature axis are `cat`. -/
theorem cat_eq (p q : FVec Ideal S8x200x128 .f32) :
    concatenate S8x200x256 2 [⟨S8x200x128, p⟩, ⟨S8x200x128, q⟩] concatenates_S8x200x128_S8x200x128_S8x200x256_d2 = cat p q := by
  funext j
  by_cases hlt : (j 2).val < 128
  · refine (concatenate_pair_apply_left 2 p q _ j rfl (ix3 (j 0) (j 1) ⟨(j 2).val, hlt⟩) fun ax => ?_).trans ?_
    · match ax with
      | ⟨0, _⟩ => rfl
      | ⟨1, _⟩ => rfl
      | ⟨2, _⟩ => rfl
    · unfold cat
      rw [dif_pos hlt]
  · have h2 : (j 2).val < 256 := (j 2).isLt
    refine (concatenate_pair_apply_right 2 p q _ j rfl rfl (ix3 (j 0) (j 1) ⟨(j 2).val - 128, by omega⟩) (fun ax hne => ?_) ?_).trans ?_
    · match ax with
      | ⟨0, _⟩ => rfl
      | ⟨1, _⟩ => rfl
      | ⟨2, _⟩ => exact absurd rfl hne
    · show (j 2).val - 128 + 128 = (j 2).val
      omega
    · unfold cat
      rw [dif_neg hlt]

end Messages

/-- The 256-wide message block the body builds from a block of node states `h`, the two adjacency blocks and the edge
    maps' weights and biases: the incoming and the outgoing aggregation side by side. -/
theorem messages_eq (h : Vec Ideal S8x200x128 .f32) (aIn aOut : Vec Ideal S8x200x200 .f32) (wein weout : Vec Ideal S128x128 .f32)
    (bein beout biah boah : Vec Ideal S128 .f32) :
    k0_pay4 (F := Ideal) h aIn aOut wein weout bein beout biah boah
      = cat (agg aIn (lin h wein bein) biah) (agg aOut (lin h weout beout) boah) := by
  refine (Messages.cat_eq _ _).trans ?_
  refine congrArg₂ cat ?_ ?_
  · refine (Messages.agg_eq _ _ _).trans ?_
    exact congrArg (fun e => agg aIn e biah) (Messages.edge_eq h wein bein)
  · refine (Messages.agg_eq _ _ _).trans ?_
    exact congrArg (fun e => agg aOut e boah) (Messages.edge_eq h weout beout)

end Cert.KernelIdeal.BodyValue

end
-- ==== Proof.BodyGates.lean ====
/-
  The second part of the kernel body on one block of eight graphs: the two gate maps and the gates.
-/
import proofs.«142575_j24060406792471_1_alg».proof.Proof.Spec
import proofs.«142575_j24060406792471_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.TcCoe Idealize.ShloMosaic.ValueIdx Cert.KernelIdeal Cert.KernelIdeal.Gen Cert.Cell

/-! ### The two matrix products read at an index

A product into the zero accumulator, contracting the last axis of both operands, read at row `r`, column `g`: the sum
over `k` of `x r k * w g k`. -/

theorem lhs256_0 (i : S1600x384.Idx) (q : dot_S1600x256_S384x256_S1600x384_1_1_0_0_n_n.contr.Idx) :
    (dot_S1600x256_S384x256_S1600x384_1_1_0_0_n_n.lhsIdx i q 0).val = (i 0).val := by
  unfold DotDims.lhsIdx
  rw [dif_neg (show ¬(0 : Fin S1600x256.rank) ∈ dot_S1600x256_S384x256_S1600x384_1_1_0_0_n_n.lhsBatch by decide), dif_pos (show (0 : Fin S1600x256.rank) ∈ dot_S1600x256_S384x256_S1600x384_1_1_0_0_n_n.lhsNonContracting by decide)]
  rfl
theorem lhs256_1 (i : S1600x384.Idx) (q : dot_S1600x256_S384x256_S1600x384_1_1_0_0_n_n.contr.Idx) :
    (dot_S1600x256_S384x256_S1600x384_1_1_0_0_n_n.lhsIdx i q 1).val = (q ⟨0, by decide⟩).val :=
  dot_S1600x256_S384x256_S1600x384_1_1_0_0_n_n.lhsIdx_val_of_single rfl i q
theorem rhs256_0 (i : S1600x384.Idx) (q : dot_S1600x256_S384x256_S1600x384_1_1_0_0_n_n.contr.Idx) :
    (dot_S1600x256_S384x256_S1600x384_1_1_0_0_n_n.rhsIdx i q 0).val = (i 1).val := by
  unfold DotDims.rhsIdx
  rw [dif_neg (show ¬(0 : Fin S384x256.rank) ∈ dot_S1600x256_S384x256_S1600x384_1_1_0_0_n_n.rhsBatch by decide), dif_pos (show (0 : Fin S384x256.rank) ∈ dot_S1600x256_S384x256_S1600x384_1_1_0_0_n_n.rhsNonContracting by decide)]
  rfl
theorem rhs256_1 (i : S1600x384.Idx) (q : dot_S1600x256_S384x256_S1600x384_1_1_0_0_n_n.contr.Idx) :
    (dot_S1600x256_S384x256_S1600x384_1_1_0_0_n_n.rhsIdx i q 1).val = (q ⟨0, by decide⟩).val :=
  dot_S1600x256_S384x256_S1600x384_1_1_0_0_n_n.rhsIdx_val_of_single rfl i q

theorem matmul256_apply (x : FVec Ideal S1600x256 .bf16) (w : FVec Ideal S384x256 .bf16) (r : Fin 1600) (g : Fin 384) :
    matmul dot_S1600x256_S384x256_S1600x384_1_1_0_0_n_n none x w (constant S1600x384 .f32 0x00000000#32) (ix2 r g)
      = ∑ k : Fin 256, x (ix2 r k) * w (ix2 g k) := by
  simp only [matmul]
  rw [Ideal.matmul_constant_zero_apply, ← Equiv.sum_comp (ValueIdx.contrEquiv1 dot_S1600x256_S384x256_S1600x384_1_1_0_0_n_n 256 rfl rfl).symm]
  refine Finset.sum_congr rfl fun k _ => ?_
  have hk := ValueIdx.contrEquiv1_symm_val dot_S1600x256_S384x256_S1600x384_1_1_0_0_n_n 256 rfl rfl k
  have el : dot_S1600x256_S384x256_S1600x384_1_1_0_0_n_n.lhsIdx (ix2 r g) ((ValueIdx.contrEquiv1 dot_S1600x256_S384x256_S1600x384_1_1_0_0_n_n 256 rfl rfl).symm k) = ix2 r k := funext fun a => Fin.ext (by
    match a with
    | ⟨0, _⟩ => exact lhs256_0 _ _
    | ⟨1, _⟩ => exact (lhs256_1 _ _).trans hk)
  have er : dot_S1600x256_S384x256_S1600x384_1_1_0_0_n_n.rhsIdx (ix2 r g) ((ValueIdx.contrEquiv1 dot_S1600x256_S384x256_S1600x384_1_1_0_0_n_n 256 rfl rfl).symm k) = ix2 g k := funext fun a => Fin.ext (by
    match a with
    | ⟨0, _⟩ => exact rhs256_0 _ _
    | ⟨1, _⟩ => exact (rhs256_1 _ _).trans hk)
  rw [el, er]

theorem lhs128_0 (i : S1600x384.Idx) (q : dot_S1600x128_S384x128_S1600x384_1_1_0_0_n_n.contr.Idx) :
    (dot_S1600x128_S384x128_S1600x384_1_1_0_0_n_n.lhsIdx i q 0).val = (i 0).val := by
  unfold DotDims.lhsIdx
  rw [dif_neg (show ¬(0 : Fin S1600x128.rank) ∈ dot_S1600x128_S384x128_S1600x384_1_1_0_0_n_n.lhsBatch by decide), dif_pos (show (0 : Fin S1600x128.rank) ∈ dot_S1600x128_S384x128_S1600x384_1_1_0_0_n_n.lhsNonContracting by decide)]
  rfl
theorem lhs128_1 (i : S1600x384.Idx) (q : dot_S1600x128_S384x128_S1600x384_1_1_0_0_n_n.contr.Idx) :
    (dot_S1600x128_S384x128_S1600x384_1_1_0_0_n_n.lhsIdx i q 1).val = (q ⟨0, by decide⟩).val :=
  dot_S1600x128_S384x128_S1600x384_1_1_0_0_n_n.lhsIdx_val_of_single rfl i q
theorem rhs128_0 (i : S1600x384.Idx) (q : dot_S1600x128_S384x128_S1600x384_1_1_0_0_n_n.contr.Idx) :
    (dot_S1600x128_S384x128_S1600x384_1_1_0_0_n_n.rhsIdx i q 0).val = (i 1).val := by
  unfold DotDims.rhsIdx
  rw [dif_neg (show ¬(0 : Fin S384x128.rank) ∈ dot_S1600x128_S384x128_S1600x384_1_1_0_0_n_n.rhsBatch by decide), dif_pos (show (0 : Fin S384x128.rank) ∈ dot_S1600x128_S384x128_S1600x384_1_1_0_0_n_n.rhsNonContracting by decide)]
  rfl
theorem rhs128_1 (i : S1600x384.Idx) (q : dot_S1600x128_S384x128_S1600x384_1_1_0_0_n_n.contr.Idx) :
    (dot_S1600x128_S384x128_S1600x384_1_1_0_0_n_n.rhsIdx i q 1).val = (q ⟨0, by decide⟩).val :=
  dot_S1600x128_S384x128_S1600x384_1_1_0_0_n_n.rhsIdx_val_of_single rfl i q

theorem matmul128_apply (x : FVec Ideal S1600x128 .bf16) (w : FVec Ideal S384x128 .bf16) (r : Fin 1600) (g : Fin 384) :
    matmul dot_S1600x128_S384x128_S1600x384_1_1_0_0_n_n none x w (constant S1600x384 .f32 0x00000000#32) (ix2 r g)
      = ∑ k : Fin 128, x (ix2 r k) * w (ix2 g k) := by
  simp only [matmul]
  rw [Ideal.matmul_constant_zero_apply, ← Equiv.sum_comp (ValueIdx.contrEquiv1 dot_S1600x128_S384x128_S1600x384_1_1_0_0_n_n 128 rfl rfl).symm]
  refine Finset.sum_congr rfl fun k _ => ?_
  have hk := ValueIdx.contrEquiv1_symm_val dot_S1600x128_S384x128_S1600x384_1_1_0_0_n_n 128 rfl rfl k
  have el : dot_S1600x128_S384x128_S1600x384_1_1_0_0_n_n.lhsIdx (ix2 r g) ((ValueIdx.contrEquiv1 dot_S1600x128_S384x128_S1600x384_1_1_0_0_n_n 128 rfl rfl).symm k) = ix2 r k := funext fun a => Fin.ext (by
    match a with
    | ⟨0, _⟩ => exact lhs128_0 _ _
    | ⟨1, _⟩ => exact (lhs128_1 _ _).trans hk)
  have er : dot_S1600x128_S384x128_S1600x384_1_1_0_0_n_n.rhsIdx (ix2 r g) ((ValueIdx.contrEquiv1 dot_S1600x128_S384x128_S1600x384_1_1_0_0_n_n 128 rfl rfl).symm k) = ix2 g k := funext fun a => Fin.ext (by
    match a with
    | ⟨0, _⟩ => exact rhs128_0 _ _
    | ⟨1, _⟩ => exact (rhs128_1 _ _).trans hk)
  rw [el, er]

/-! ### The layout operations read at an index -/

/-- The bias row broadcast over the 1600 rows reads the bias at the column. -/
theorem bias_apply (bv : Vec Ideal S384 .f32) (r : Fin 1600) (g : Fin 384) :
    broadcastTo S1600x384 (shapeCast S1x384 bv shapeCasts_S384_S1x384) broadcasts_S1x384_S1600x384 (ix2 r g) = bv (ix1 g) := by
  refine (broadcastTo_apply _ broadcasts_S1x384_S1600x384 (ix2 r g) (ix2 (0 : Fin 1) g) (fun a => ?_)).trans ?_
  · match a with
    | ⟨0, _⟩ => rfl
    | ⟨1, _⟩ => rfl
  · refine shapeCast_apply bv shapeCasts_S384_S1x384 _ (ix1 g) ?_
    rw [Shape.rowMajor_val_one, Shape.rowMajor_val_two]
    show g.val = 0 * 384 + g.val
    omega

/-- Row `200 * b + l` of the flat view of the message block is node `l` of graph `b`. -/
theorem flat256_apply (x : FVec Ideal S8x200x256 .f32) (b : Fin 8) (l : Fin 200) (k : Fin 256) (hr : 200 * b.val + l.val < 1600) :
    shapeCast S1600x256 x shapeCasts_S8x200x256_S1600x256 (ix2 ⟨200 * b.val + l.val, hr⟩ k) = x (ix3 b l k) := by
  refine shapeCast_apply x shapeCasts_S8x200x256_S1600x256 _ (ix3 b l k) ?_
  rw [Shape.rowMajor_val_three, Shape.rowMajor_val_two]
  show (b.val * 200 + l.val) * 256 + k.val = (200 * b.val + l.val) * 256 + k.val
  omega

/-- Row `200 * b + l` of the flat view of the state block is node `l` of graph `b`. -/
theorem flat128_apply (x : Vec Ideal S8x200x128 .f32) (b : Fin 8) (l : Fin 200) (k : Fin 128) (hr : 200 * b.val + l.val < 1600) :
    shapeCast S1600x128 x shapeCasts_S8x200x128_S1600x128 (ix2 ⟨200 * b.val + l.val, hr⟩ k) = x (ix3 b l k) := by
  refine shapeCast_apply x shapeCasts_S8x200x128_S1600x128 _ (ix3 b l k) ?_
  rw [Shape.rowMajor_val_three, Shape.rowMajor_val_two]
  show (b.val * 200 + l.val) * 128 + k.val = (200 * b.val + l.val) * 128 + k.val
  omega

/-- The flat result cast back to eight graphs reads row `200 * b + l`. -/
theorem unflat128_apply (y : FVec Ideal S1600x128 .f32) (b : Fin 8) (l : Fin 200) (k : Fin 128) (hr : 200 * b.val + l.val < 1600) :
    shapeCast S8x200x128 y shapeCasts_S1600x128_S8x200x128 (ix3 b l k) = y (ix2 ⟨200 * b.val + l.val, hr⟩ k) := by
  refine shapeCast_apply y shapeCasts_S1600x128_S8x200x128 _ (ix2 ⟨200 * b.val + l.val, hr⟩ k) ?_
  rw [Shape.rowMajor_val_three, Shape.rowMajor_val_two]
  show (200 * b.val + l.val) * 128 + k.val = (b.val * 200 + l.val) * 128 + k.val
  omega

/-! ### The two gate maps on the flat rows -/

/-- The message block's gate map on the 1600 flat rows: `msg · w_ihᵀ + b_ih`. -/
def giFlat (msg : FVec Ideal S8x200x256 .f32) (wih : Vec Ideal S384x256 .f32) (bih : Vec Ideal S384 .f32) : FVec Ideal S1600x384 .f32 :=
  addf
    (matmul dot_S1600x256_S384x256_S1600x384_1_1_0_0_n_n none
      (truncf .bf16 (shapeCast S1600x256 msg shapeCasts_S8x200x256_S1600x256) bitsLt_bf16_f32)
      (truncf .bf16 wih bitsLt_bf16_f32) (constant S1600x384 .f32 0x00000000#32))
    (broadcastTo S1600x384 (shapeCast S1x384 bih shapeCasts_S384_S1x384) broadcasts_S1x384_S1600x384)

/-- The state block's gate map on the 1600 flat rows: `h · w_hhᵀ + b_hh`. -/
def ghFlat (h : Vec Ideal S8x200x128 .f32) (whh : Vec Ideal S384x128 .f32) (bhh : Vec Ideal S384 .f32) : FVec Ideal S1600x384 .f32 :=
  addf
    (matmul dot_S1600x128_S384x128_S1600x384_1_1_0_0_n_n none
      (truncf .bf16 (shapeCast S1600x128 h shapeCasts_S8x200x128_S1600x128) bitsLt_bf16_f32)
      (truncf .bf16 whh bitsLt_bf16_f32) (constant S1600x384 .f32 0x00000000#32))
    (broadcastTo S1600x384 (shapeCast S1x384 bhh shapeCasts_S384_S1x384) broadcasts_S1x384_S1600x384)

/-- Row `200 * b + l` of the first flat gate map is the specification's at node `l` of graph `b`. -/
theorem giFlat_apply (msg : FVec Ideal S8x200x256 .f32) (wih : Vec Ideal S384x256 .f32) (bih : Vec Ideal S384 .f32)
    (b : Fin 8) (l : Fin 200) (g : Fin 384) (hr : 200 * b.val + l.val < 1600) :
    giFlat msg wih bih (ix2 ⟨200 * b.val + l.val, hr⟩ g) = lin msg wih bih (ix3 b l g) := by
  unfold giFlat
  rw [addf_apply, matmul256_apply, bias_apply]
  show _ = (∑ k : Fin 256, msg (ix3 b l k) * wih (ix2 g k)) + bih (ix1 g)
  refine congrArg (· + bih (ix1 g)) (Finset.sum_congr rfl fun k _ => ?_)
  rw [truncf_apply, truncf_apply, flat256_apply]

/-- Row `200 * b + l` of the second flat gate map is the specification's at node `l` of graph `b`. -/
theorem ghFlat_apply (h : Vec Ideal S8x200x128 .f32) (whh : Vec Ideal S384x128 .f32) (bhh : Vec Ideal S384 .f32)
    (b : Fin 8) (l : Fin 200) (g : Fin 384) (hr : 200 * b.val + l.val < 1600) :
    ghFlat h whh bhh (ix2 ⟨200 * b.val + l.val, hr⟩ g) = lin h whh bhh (ix3 b l g) := by
  unfold ghFlat
  rw [addf_apply, matmul128_apply, bias_apply]
  show _ = (∑ k : Fin 128, h (ix3 b l k) * whh (ix2 g k)) + bhh (ix1 g)
  refine congrArg (· + bhh (ix1 g)) (Finset.sum_congr rfl fun k _ => ?_)
  rw [truncf_apply, truncf_apply, flat128_apply]

/-! ### The gates on the flat rows -/

/-- The 128-wide column block at offset 0, 128 or 256 of a 384-wide flat array reads column `o + k`. -/
theorem slice0_apply (v : FVec Ideal S1600x384 .f32) (r : Fin 1600) (k : Fin 128) :
    extractStridedSlice S1600x128 ![0, 0] v slices_S1600x384_o0_0_S1600x128 (ix2 r k) = v (ix2 r (col 0 (by omega) k)) := by
  refine extractStridedSlice_apply ![0, 0] v slices_S1600x384_o0_0_S1600x128 (ix2 r k) (ix2 r (col 0 (by omega) k)) (fun a => ?_)
  match a with
  | ⟨0, _⟩ => show r.val = 0 + r.val; omega
  | ⟨1, _⟩ => show 0 + k.val = 0 + k.val; rfl
theorem slice128_apply (v : FVec Ideal S1600x384 .f32) (r : Fin 1600) (k : Fin 128) :
    extractStridedSlice S1600x128 ![0, 128] v slices_S1600x384_o0_128_S1600x128 (ix2 r k) = v (ix2 r (col 128 (by omega) k)) := by
  refine extractStridedSlice_apply ![0, 128] v slices_S1600x384_o0_128_S1600x128 (ix2 r k) (ix2 r (col 128 (by omega) k)) (fun a => ?_)
  match a with
  | ⟨0, _⟩ => show r.val = 0 + r.val; omega
  | ⟨1, _⟩ => show 128 + k.val = 128 + k.val; rfl
theorem slice256_apply (v : FVec Ideal S1600x384 .f32) (r : Fin 1600) (k : Fin 128) :
    extractStridedSlice S1600x128 ![0, 256] v slices_S1600x384_o0_256_S1600x128 (ix2 r k) = v (ix2 r (col 256 (by omega) k)) := by
  refine extractStridedSlice_apply ![0, 256] v slices_S1600x384_o0_256_S1600x128 (ix2 r k) (ix2 r (col 256 (by omega) k)) (fun a => ?_)
  match a with
  | ⟨0, _⟩ => show r.val = 0 + r.val; omega
  | ⟨1, _⟩ => show 256 + k.val = 256 + k.val; rfl

/-- The gates over two flat gate maps and the flat state, as the body computes them. -/
def flatGates (gi gh : FVec Ideal S1600x384 .f32) (hf : FVec Ideal S1600x128 .f32) : FVec Ideal S1600x128 .f32 :=
  addf
    (tanh (addf (extractStridedSlice S1600x128 ![0, 256] gi slices_S1600x384_o0_256_S1600x128)
      (mulf
        (logistic (addf (extractStridedSlice S1600x128 ![0, 0] gi slices_S1600x384_o0_0_S1600x128)
          (extractStridedSlice S1600x128 ![0, 0] gh slices_S1600x384_o0_0_S1600x128)))
        (extractStridedSlice S1600x128 ![0, 256] gh slices_S1600x384_o0_256_S1600x128))))
    (mulf
      (logistic (addf (extractStridedSlice S1600x128 ![0, 128] gi slices_S1600x384_o0_128_S1600x128)
        (extractStridedSlice S1600x128 ![0, 128] gh slices_S1600x384_o0_128_S1600x128)))
      (subf hf
        (tanh (addf (extractStridedSlice S1600x128 ![0, 256] gi slices_S1600x384_o0_256_S1600x128)
          (mulf
            (logistic (addf (extractStridedSlice S1600x128 ![0, 0] gi slices_S1600x384_o0_0_S1600x128)
              (extractStridedSlice S1600x128 ![0, 0] gh slices_S1600x384_o0_0_S1600x128)))
            (extractStridedSlice S1600x128 ![0, 256] gh slices_S1600x384_o0_256_S1600x128))))))

/-- The flat gates at row `r`, feature `k`: the reset gate, the update gate, the candidate and the new state over the
    three column blocks of the two gate maps. -/
theorem flatGates_apply (gi gh : FVec Ideal S1600x384 .f32) (hf : FVec Ideal S1600x128 .f32) (r : Fin 1600) (k : Fin 128) :
    flatGates gi gh hf (ix2 r k)
      = Ideal.tanh (gi (ix2 r (col 256 (by omega) k))
            + Ideal.logistic (gi (ix2 r (col 0 (by omega) k)) + gh (ix2 r (col 0 (by omega) k))) * gh (ix2 r (col 256 (by omega) k)))
        + Ideal.logistic (gi (ix2 r (col 128 (by omega) k)) + gh (ix2 r (col 128 (by omega) k)))
          * (hf (ix2 r k) - Ideal.tanh (gi (ix2 r (col 256 (by omega) k))
            + Ideal.logistic (gi (ix2 r (col 0 (by omega) k)) + gh (ix2 r (col 0 (by omega) k))) * gh (ix2 r (col 256 (by omega) k)))) := by
  rw [← slice0_apply gi, ← slice0_apply gh, ← slice128_apply gi, ← slice128_apply gh, ← slice256_apply gi, ← slice256_apply gh]
  rfl

/-- The payload is the flat gates over the two flat gate maps and the flat state, cast back to eight graphs. -/
theorem pay_eq (h : Vec Ideal S8x200x128 .f32) (msg : FVec Ideal S8x200x256 .f32) (wih : Vec Ideal S384x256 .f32) (bih : Vec Ideal S384 .f32)
    (whh : Vec Ideal S384x128 .f32) (bhh : Vec Ideal S384 .f32) :
    k0_pay1 (F := Ideal) (k0_pay2 h) (k0_pay3 h) msg wih bih whh bhh
      = shapeCast S8x200x128 (flatGates (giFlat msg wih bih) (ghFlat h whh bhh) (shapeCast S1600x128 h shapeCasts_S8x200x128_S1600x128))
          shapeCasts_S1600x128_S8x200x128 := rfl

/-- What the body stores, from the block of node states `h`, the 256-wide message block `msg` and the gate maps'
    weights and biases: the gates over `msg · w_ihᵀ + b_ih` and `h · w_hhᵀ + b_hh`. -/
theorem update_eq (h : Vec Ideal S8x200x128 .f32) (msg : FVec Ideal S8x200x256 .f32) (wih : Vec Ideal S384x256 .f32) (bih : Vec Ideal S384 .f32)
    (whh : Vec Ideal S384x128 .f32) (bhh : Vec Ideal S384 .f32) :
    k0_pay1 (F := Ideal) (k0_pay2 h) (k0_pay3 h) msg wih bih whh bhh
      = gates (lin msg wih bih) (lin h whh bhh) h := by
  funext i
  obtain ⟨b, l, k, rfl⟩ : ∃ b l k, i = ix3 b l k := ⟨i 0, i 1, i 2, eq_ix3 i⟩
  have hr : 200 * b.val + l.val < 1600 := by have := b.isLt; have := l.isLt; omega
  rw [pay_eq, unflat128_apply _ b l k hr, flatGates_apply, flat128_apply h b l k hr]
  rw [giFlat_apply msg wih bih b l _ hr, giFlat_apply msg wih bih b l _ hr, giFlat_apply msg wih bih b l _ hr,
    ghFlat_apply h whh bhh b l _ hr, ghFlat_apply h whh bhh b l _ hr, ghFlat_apply h whh bhh b l _ hr]
  rfl

end Cert.KernelIdeal.BodyValue

end
-- ==== Proof.KernelRun.lean ====
/-
  The idealized kernel's run, read as the cell.

  The grid has 128 points; at point t every batched window (the two adjacency halves, the node states, the
  output) holds graphs 8t … 8t+7 of its array and every weight window holds its whole array.  So what point t
  writes back is the cell on graphs 8t … 8t+7, which is rows 8t … 8t+7 of the cell on the whole batch; the 128
  blocks tile the output array, which therefore ends as the cell of the argument arrays.
-/
import proofs.«142575_j24060406792471_1_alg».proof.Proof.Spec
import proofs.«142575_j24060406792471_1_alg».proof.Proof.BodyMessages
import proofs.«142575_j24060406792471_1_alg».proof.Proof.BodyGates
import proofs.«142575_j24060406792471_1_alg».proof.Proof.Gen.KernelIdeal.Value
import Idealize.ShloMosaic.Lib.Pipeline.Value
import Idealize.ShloMosaic.Lib.ValueIdx
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

/-! ## Where each window's block sits -/

/-- A grid point as a number below 128. -/
def pt (t : Fin cfg0.N) : Fin 128 := ⟨t.val, lt_of_lt_of_eq t.isLt N_0⟩

/-- The index maps over the grid: a batched window's block index is (t, 0, 0). -/
theorem batched_idx : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_13.index t (0 : Fin 3) = t.val ∧ win0_13.index t (1 : Fin 3) = 0 ∧ win0_13.index t (2 : Fin 3) = 0) :=
  (by decide +kernel : ∀ t : Fin grid0.N, _)

/-- A weight window's block index is zero on every axis. -/
theorem weight_idx : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0 ∧ win0_6.index t (0 : Fin 1) = 0
    ∧ win0_7.index t (0 : Fin 1) = 0 ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0 :=
  (by decide +kernel : ∀ t : Fin grid0.N, _)

/-- The node-state window at point t holds graphs 8t … 8t+7. -/
theorem blk_h (c : Dev nD) (t : Fin cfg0.N) : iblk m c 2 t = rows (pt t) (V m c main_arg1) := by
  funext y
  show V m c main_arg1 (((cfg0.win 2).blk t).view.emb y) = V m c main_arg1 (ix3 (brow (pt t) (y 0)) (y 1) (y 2))
  obtain ⟨-, -, ⟨e0, e1, e2⟩, -⟩ := batched_idx t
  refine congrArg _ (funext fun a => Fin.ext ?_)
  match a with
  | ⟨0, _⟩ => show win0_2.index t (0 : Fin 3) * 8 + 1 * (y 0).val = 8 * t.val + (y 0).val; omega
  | ⟨1, _⟩ => show win0_2.index t (1 : Fin 3) * 200 + 1 * (y 1).val = (y 1).val; omega
  | ⟨2, _⟩ => show win0_2.index t (2 : Fin 3) * 128 + 1 * (y 2).val = (y 2).val; omega

/-- The incoming-adjacency window at point t holds graphs 8t … 8t+7. -/
theorem blk_aIn (c : Dev nD) (t : Fin cfg0.N) : iblk m c 0 t = rows (pt t) (V m c main_v0) := by
  funext y
  show V m c main_v0 (((cfg0.win 0).blk t).view.emb y) = V m c main_v0 (ix3 (brow (pt t) (y 0)) (y 1) (y 2))
  obtain ⟨⟨e0, e1, e2⟩, -, -, -⟩ := batched_idx t
  refine congrArg _ (funext fun a => Fin.ext ?_)
  match a with
  | ⟨0, _⟩ => show win0_0.index t (0 : Fin 3) * 8 + 1 * (y 0).val = 8 * t.val + (y 0).val; omega
  | ⟨1, _⟩ => show win0_0.index t (1 : Fin 3) * 200 + 1 * (y 1).val = (y 1).val; omega
  | ⟨2, _⟩ => show win0_0.index t (2 : Fin 3) * 200 + 1 * (y 2).val = (y 2).val; omega

/-- The outgoing-adjacency window at point t holds graphs 8t … 8t+7. -/
theorem blk_aOut (c : Dev nD) (t : Fin cfg0.N) : iblk m c 1 t = rows (pt t) (V m c main_v1) := by
  funext y
  show V m c main_v1 (((cfg0.win 1).blk t).view.emb y) = V m c main_v1 (ix3 (brow (pt t) (y 0)) (y 1) (y 2))
  obtain ⟨-, ⟨e0, e1, e2⟩, -, -⟩ := batched_idx t
  refine congrArg _ (funext fun a => Fin.ext ?_)
  match a with
  | ⟨0, _⟩ => show win0_1.index t (0 : Fin 3) * 8 + 1 * (y 0).val = 8 * t.val + (y 0).val; omega
  | ⟨1, _⟩ => show win0_1.index t (1 : Fin 3) * 200 + 1 * (y 1).val = (y 1).val; omega
  | ⟨2, _⟩ => show win0_1.index t (2 : Fin 3) * 200 + 1 * (y 2).val = (y 2).val; omega

/-! ## The weight windows hold their whole arrays -/

theorem blk_wih (c : Dev nD) (t : Fin cfg0.N) : iblk m c 3 t = V m c main_arg2 := by
  funext y
  show V m c main_arg2 (((cfg0.win 3).blk t).view.emb y) = V m c main_arg2 y
  obtain ⟨⟨e0, e1⟩, -⟩ := weight_idx t
  refine congrArg _ (funext fun a => Fin.ext ?_)
  match a with
  | ⟨0, _⟩ => show win0_3.index t (0 : Fin 2) * 384 + 1 * (y 0).val = (y 0).val; omega
  | ⟨1, _⟩ => show win0_3.index t (1 : Fin 2) * 256 + 1 * (y 1).val = (y 1).val; omega

theorem blk_whh (c : Dev nD) (t : Fin cfg0.N) : iblk m c 4 t = V m c main_arg3 := by
  funext y
  show V m c main_arg3 (((cfg0.win 4).blk t).view.emb y) = V m c main_arg3 y
  obtain ⟨-, ⟨e0, e1⟩, -⟩ := weight_idx t
  refine congrArg _ (funext fun a => Fin.ext ?_)
  match a with
  | ⟨0, _⟩ => show win0_4.index t (0 : Fin 2) * 384 + 1 * (y 0).val = (y 0).val; omega
  | ⟨1, _⟩ => show win0_4.index t (1 : Fin 2) * 128 + 1 * (y 1).val = (y 1).val; omega

theorem blk_bih (c : Dev nD) (t : Fin cfg0.N) : iblk m c 5 t = V m c main_arg4 := by
  funext y
  show V m c main_arg4 (((cfg0.win 5).blk t).view.emb y) = V m c main_arg4 y
  obtain ⟨-, -, e0, -⟩ := weight_idx t
  refine congrArg _ (funext fun a => Fin.ext ?_)
  match a with
  | ⟨0, _⟩ => show win0_5.index t (0 : Fin 1) * 384 + 1 * (y 0).val = (y 0).val; omega

theorem blk_bhh (c : Dev nD) (t : Fin cfg0.N) : iblk m c 6 t = V m c main_arg5 := by
  funext y
  show V m c main_arg5 (((cfg0.win 6).blk t).view.emb y) = V m c main_arg5 y
  obtain ⟨-, -, -, e0, -⟩ := weight_idx t
  refine congrArg _ (funext fun a => Fin.ext ?_)
  match a with
  | ⟨0, _⟩ => show win0_6.index t (0 : Fin 1) * 384 + 1 * (y 0).val = (y 0).val; omega

theorem blk_biah (c : Dev nD) (t : Fin cfg0.N) : iblk m c 7 t = V m c main_arg6 := by
  funext y
  show V m c main_arg6 (((cfg0.win 7).blk t).view.emb y) = V m c main_arg6 y
  obtain ⟨-, -, -, -, e0, -⟩ := weight_idx t
  refine congrArg _ (funext fun a => Fin.ext ?_)
  match a with
  | ⟨0, _⟩ => show win0_7.index t (0 : Fin 1) * 128 + 1 * (y 0).val = (y 0).val; omega

theorem blk_boah (c : Dev nD) (t : Fin cfg0.N) : iblk m c 8 t = V m c main_arg7 := by
  funext y
  show V m c main_arg7 (((cfg0.win 8).blk t).view.emb y) = V m c main_arg7 y
  obtain ⟨-, -, -, -, -, e0, -⟩ := weight_idx t
  refine congrArg _ (funext fun a => Fin.ext ?_)
  match a with
  | ⟨0, _⟩ => show win0_8.index t (0 : Fin 1) * 128 + 1 * (y 0).val = (y 0).val; omega

theorem blk_wein (c : Dev nD) (t : Fin cfg0.N) : iblk m c 9 t = V m c main_arg8 := by
  funext y
  show V m c main_arg8 (((cfg0.win 9).blk t).view.emb y) = V m c main_arg8 y
  obtain ⟨-, -, -, -, -, -, ⟨e0, e1⟩, -⟩ := weight_idx t
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk_bein (c : Dev nD) (t : Fin cfg0.N) : iblk m c 10 t = V m c main_arg9 := by
  funext y
  show V m c main_arg9 (((cfg0.win 10).blk t).view.emb y) = V m c main_arg9 y
  obtain ⟨-, -, -, -, -, -, -, e0, -⟩ := weight_idx t
  refine congrArg _ (funext fun a => Fin.ext ?_)
  match a with
  | ⟨0, _⟩ => show win0_10.index t (0 : Fin 1) * 128 + 1 * (y 0).val = (y 0).val; omega

theorem blk_weout (c : Dev nD) (t : Fin cfg0.N) : iblk m c 11 t = V m c main_arg10 := by
  funext y
  show V m c main_arg10 (((cfg0.win 11).blk t).view.emb y) = V m c main_arg10 y
  obtain ⟨-, -, -, -, -, -, -, -, ⟨e0, e1⟩, -⟩ := weight_idx t
  refine congrArg _ (funext fun a => Fin.ext ?_)
  match a with
  | ⟨0, _⟩ => show win0_11.index t (0 : Fin 2) * 128 + 1 * (y 0).val = (y 0).val; omega
  | ⟨1, _⟩ => show win0_11.index t (1 : Fin 2) * 128 + 1 * (y 1).val = (y 1).val; omega

theorem blk_beout (c : Dev nD) (t : Fin cfg0.N) : iblk m c 12 t = V m c main_arg11 := by
  funext y
  show V m c main_arg11 (((cfg0.win 12).blk t).view.emb y) = V m c main_arg11 y
  obtain ⟨-, -, -, -, -, -, -, -, -, e0⟩ := weight_idx t
  refine congrArg _ (funext fun a => Fin.ext ?_)
  match a with
  | ⟨0, _⟩ => show win0_12.index t (0 : Fin 1) * 128 + 1 * (y 0).val = (y 0).val; omega

/-! ## The two adjacency halves the host slices before the region -/

/-- The first host operation leaves columns 0–199 of the adjacency rows. -/
theorem V_aIn (c : Dev nD) :
    (V m c main_v0 : S1024x200x200.Idx → EReal) = half 0 (by omega) (m ((c : Thread nD τ).loc main_arg0)) := by
  have e : (V m c main_v0 : S1024x200x200.Idx → EReal)
      = extractStridedSlice S1024x200x200 ![0, 0, 0] (m ((c : Thread nD τ).loc main_arg0)) Facts₀.slices_S1024x200x400_S1024x200x200_0_0_0 := by
    dsimp only [Gen.V, Gen.hostOps0]; after_results
  rw [e]
  funext i
  exact extractStridedSlice_apply _ _ _ i _ (fun a => match a with
    | ⟨0, _⟩ => by show (i 0).val = 0 + (i 0).val; omega
    | ⟨1, _⟩ => by show (i 1).val = 0 + (i 1).val; omega
    | ⟨2, _⟩ => by show 0 + (i 2).val = 0 + (i 2).val; omega)

/-- The second leaves columns 200–399. -/
theorem V_aOut (c : Dev nD) :
    (V m c main_v1 : S1024x200x200.Idx → EReal) = half 200 (by omega) (m ((c : Thread nD τ).loc main_arg0)) := by
  have e : (V m c main_v1 : S1024x200x200.Idx → EReal)
      = extractStridedSlice S1024x200x200 ![0, 0, 200] (m ((c : Thread nD τ).loc main_arg0)) Facts₀.slices_S1024x200x400_S1024x200x200_0_0_200 := by
    dsimp only [Gen.V, Gen.hostOps0]; after_results
  rw [e]
  funext i
  exact extractStridedSlice_apply _ _ _ i _ (fun a => match a with
    | ⟨0, _⟩ => by show (i 0).val = 0 + (i 0).val; omega
    | ⟨1, _⟩ => by show (i 1).val = 0 + (i 1).val; omega
    | ⟨2, _⟩ => by show 200 + (i 2).val = 200 + (i 2).val; omega)

/-! ## What a point writes back -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The body's one store, as a function of the thirteen blocks it loads whole, is the cell on the eight graphs. -/
theorem body_is_cell (x0 x1 : Vec Ideal S8x200x200 .f32) (x2 : Vec Ideal S8x200x128 .f32) (x3 : Vec Ideal S384x256 .f32)
    (x4 : Vec Ideal S384x128 .f32) (x5 x6 : Vec Ideal S384 .f32) (x7 x8 : Vec Ideal S128 .f32) (x9 : Vec Ideal S128x128 .f32)
    (x10 : Vec Ideal S128 .f32) (x11 : Vec Ideal S128x128 .f32) (x12 : Vec Ideal S128 .f32) :
    out0_13 (F := Ideal) x0 x1 x2 x3 x4 x5 x6 x7 x8 x9 x10 x11 x12 = cell x0 x1 x2 x3 x4 x5 x6 x7 x8 x9 x10 x11 x12 := by
  unfold out0_13
  rw [View.canon_unit_zero zero3]
  simp only [View.ld_unit_zero (S := S8x200x128) zero3, View.ld_unit_zero (S := S8x200x200) zero3,
    View.ld_unit_zero (S := S128x128) zero2, View.ld_unit_zero (S := S128) zero1, View.ld_unit_zero (S := S384x256) zero2,
    View.ld_unit_zero (S := S384) zero1, View.ld_unit_zero (S := S384x128) zero2]
  rw [BodyValue.messages_eq, BodyValue.update_eq]
  rfl

/-- The cell of the argument arrays as launched: what the output array ends holding. -/
def G (c : Dev nD) : Buf (Elt Ideal) ((c : Thread nD τ).loc main_v2) :=
  cell (B := 1024) (half 0 (by omega) (m ((c : Thread nD τ).loc main_arg0))) (half 200 (by omega) (m ((c : Thread nD τ).loc main_arg0)))
    (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Point t writes back rows 8t … 8t+7 of the cell of the argument arrays. -/
theorem flushed_eq (c : Dev nD) (t : Fin cfg0.N) :
    (dats m 0 c).flushed 13 t = ((cfg0.win 13).blk t).view.read (Elt Ideal) (G m c) := by
  rw [Value.flushed13, body_is_cell (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)]
  rw [blk_aIn m c t, blk_aOut m c t, blk_h m c t, blk_wih m c t, blk_whh m c t, blk_bih m c t, blk_bhh m c t, blk_biah m c t,
    blk_boah m c t, blk_wein m c t, blk_bein m c t, blk_weout m c t, blk_beout m c t]
  rw [cell_rows, V_aIn m c, V_aOut m c, V_main_arg1 m c, V_main_arg2 m c, V_main_arg3 m c, V_main_arg4 m c, V_main_arg5 m c,
    V_main_arg6 m c, V_main_arg7 m c, V_main_arg8 m c, V_main_arg9 m c, V_main_arg10 m c, V_main_arg11 m c]
  funext y
  show G m c (ix3 (brow (pt t) (y 0)) (y 1) (y 2)) = G m c (((cfg0.win 13).blk t).view.emb y)
  obtain ⟨-, -, -, ⟨e0, e1, e2⟩⟩ := batched_idx t
  refine congrArg _ (funext fun a => Fin.ext ?_)
  match a with
  | ⟨0, _⟩ => show 8 * t.val + (y 0).val = win0_13.index t (0 : Fin 3) * 8 + 1 * (y 0).val; omega
  | ⟨1, _⟩ => show (y 1).val = win0_13.index t (1 : Fin 3) * 200 + 1 * (y 1).val; omega
  | ⟨2, _⟩ => show (y 2).val = win0_13.index t (2 : Fin 3) * 128 + 1 * (y 2).val; omega

/-! ## The 128 blocks tile the output array -/

/-- An index is in point t's block iff each coordinate is in the block's range on its axis. -/
theorem mem_blk (t : Fin cfg0.N) (i : S1024x200x128.Idx) :
    i ∈ ((cfg0.win 13).blk t).view.set ↔ ∀ a : Fin 3, win0_13.index t a * S8x200x128.size a ≤ (i a).val
      ∧ (i a).val < win0_13.index t a * S8x200x128.size a + S8x200x128.size a := by
  show i ∈ ((View.whole main_v2).slice (win0_13.rect t)).set ↔ _
  rw [View.set_slice_whole, Rect.mem_set_unit]
  exact Iff.rfl

/-- Graph g lies in the block of point g / 8. -/
theorem cover (i : S1024x200x128.Idx) :
    ∃ t : Fin cfg0.N, (cfg0.win 13).flush t = true ∧ i ∈ ((cfg0.win 13).blk t).view.set := by
  have hi0 : (i 0).val < 1024 := (i 0).isLt
  have hi1 : (i 1).val < 200 := (i 1).isLt
  have hi2 : (i 2).val < 128 := (i 2).isLt
  have hN : (i 0).val / 8 < cfg0.N := by rw [show cfg0.N = 128 from N_0]; omega
  refine ⟨⟨(i 0).val / 8, hN⟩, flush0_13 _, ?_⟩
  obtain ⟨-, -, -, ⟨e0, e1, e2⟩⟩ := batched_idx ⟨(i 0).val / 8, hN⟩
  rw [mem_blk]
  intro a
  match a with
  | ⟨0, _⟩ =>
    show win0_13.index ⟨(i 0).val / 8, hN⟩ (0 : Fin 3) * 8 ≤ (i 0).val ∧ (i 0).val < win0_13.index ⟨(i 0).val / 8, hN⟩ (0 : Fin 3) * 8 + 8
    rw [e0]; show (i 0).val / 8 * 8 ≤ (i 0).val ∧ (i 0).val < (i 0).val / 8 * 8 + 8; omega
  | ⟨1, _⟩ =>
    show win0_13.index ⟨(i 0).val / 8, hN⟩ (1 : Fin 3) * 200 ≤ (i 1).val ∧ (i 1).val < win0_13.index ⟨(i 0).val / 8, hN⟩ (1 : Fin 3) * 200 + 200
    rw [e1]; omega
  | ⟨2, _⟩ =>
    show win0_13.index ⟨(i 0).val / 8, hN⟩ (2 : Fin 3) * 128 ≤ (i 2).val ∧ (i 2).val < win0_13.index ⟨(i 0).val / 8, hN⟩ (2 : Fin 3) * 128 + 128
    rw [e2]; omega

/-- So the output array ends as the cell of the argument arrays. -/
theorem final (c : Dev nD) : (dats m 0 c).arrAt 13 cfg0.N = G m c :=
  (dats m 0 c).arrAt_eq_of_cover 13 (G m c) (fun t _ => flushed_eq m c t) cover

/-! ## The run -/

/-- Every weakly fair execution of the idealized kernel ends with the result array at the cell of the arguments
    and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.RunValue

end
-- ==== Proof.RefCell.lean ====
/-
  The reference, read as the cell on the whole batch of 1024 graphs.
-/
import proofs.«142575_j24060406792471_1_alg».proof.Proof.Spec
import proofs.«142575_j24060406792471_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Cert.ReferenceIdeal Cert.ReferenceIdeal.Read Cert.Cell

section Stages

variable (x0 : (⟨S1024x200x400, .f32⟩ : BufTy).Contents (Elt Ideal)) (x1 : (⟨S1024x200x128, .f32⟩ : BufTy).Contents (Elt Ideal))
  (x2 : (⟨S384x256, .f32⟩ : BufTy).Contents (Elt Ideal)) (x3 : (⟨S384x128, .f32⟩ : BufTy).Contents (Elt Ideal))
  (x4 x5 : (⟨S384, .f32⟩ : BufTy).Contents (Elt Ideal)) (x6 x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-- The first edge map: the node features times the transposed weight, plus the bias along the feature axis. -/
theorem stage_v5 : val_main_v5 (F := Ideal) x1 x8 x9 = lin x1 x8 x9 := by
  funext i
  rw [val_main_v5_apply, val_main_v2_apply, val_main_v4_apply, val_main_v3_apply]
  show (∑ k : Fin 128, x1 (lidx_main_v2 i k) * x8 (ridx_main_v2 i k)) + x9 (idx_main_v3 (idx_main_v4 i))
    = (∑ k : Fin 128, x1 (ix3 (i 0) (i 1) k) * x8 (ix2 (i 2) k)) + x9 (ix1 (i 2))
  have e1 : ∀ k : Fin 128, lidx_main_v2 i k = ix3 (i 0) (i 1) k := fun k => funext fun a => by
    match a with | ⟨0, _⟩ => rfl | ⟨1, _⟩ => rfl | ⟨2, _⟩ => rfl
  have e2 : ∀ k : Fin 128, ridx_main_v2 i k = ix2 (i 2) k := fun k => funext fun a => by
    match a with | ⟨0, _⟩ => rfl | ⟨1, _⟩ => rfl
  have e3 : idx_main_v3 (idx_main_v4 i) = ix1 (i 2) := funext fun a => by
    match a with | ⟨0, _⟩ => rfl
  rw [e3]
  exact congrArg (· + x9 (ix1 (i 2))) (Finset.sum_congr rfl fun k _ => by rw [e1, e2]; rfl)

/-- The second edge map. -/
theorem stage_v9 : val_main_v9 (F := Ideal) x1 x10 x11 = lin x1 x10 x11 := by
  funext i
  rw [val_main_v9_apply, val_main_v6_apply, val_main_v8_apply, val_main_v7_apply]
  show (∑ k : Fin 128, x1 (lidx_main_v6 i k) * x10 (ridx_main_v6 i k)) + x11 (idx_main_v7 (idx_main_v8 i))
    = (∑ k : Fin 128, x1 (ix3 (i 0) (i 1) k) * x10 (ix2 (i 2) k)) + x11 (ix1 (i 2))
  have e1 : ∀ k : Fin 128, lidx_main_v6 i k = ix3 (i 0) (i 1) k := fun k => funext fun a => by
    match a with | ⟨0, _⟩ => rfl | ⟨1, _⟩ => rfl | ⟨2, _⟩ => rfl
  have e2 : ∀ k : Fin 128, ridx_main_v6 i k = ix2 (i 2) k := fun k => funext fun a => by
    match a with | ⟨0, _⟩ => rfl | ⟨1, _⟩ => rfl
  have e3 : idx_main_v7 (idx_main_v8 i) = ix1 (i 2) := funext fun a => by
    match a with | ⟨0, _⟩ => rfl
  rw [e3]
  exact congrArg (· + x11 (ix1 (i 2))) (Finset.sum_congr rfl fun k _ => by rw [e1, e2]; rfl)

/-- The hidden-state gate map: 384 gate columns from the 128 node features. -/
theorem stage_v26 : val_main_v26 (F := Ideal) x1 x3 x5 = lin x1 x3 x5 := by
  funext i
  rw [val_main_v26_apply, val_main_v23_apply, val_main_v25_apply, val_main_v24_apply]
  show (∑ k : Fin 128, x1 (lidx_main_v23 i k) * x3 (ridx_main_v23 i k)) + x5 (idx_main_v24 (idx_main_v25 i))
    = (∑ k : Fin 128, x1 (ix3 (i 0) (i 1) k) * x3 (ix2 (i 2) k)) + x5 (ix1 (i 2))
  have e1 : ∀ k : Fin 128, lidx_main_v23 i k = ix3 (i 0) (i 1) k := fun k => funext fun a => by
    match a with | ⟨0, _⟩ => rfl | ⟨1, _⟩ => rfl | ⟨2, _⟩ => rfl
  have e2 : ∀ k : Fin 128, ridx_main_v23 i k = ix2 (i 2) k := fun k => funext fun a => by
    match a with | ⟨0, _⟩ => rfl | ⟨1, _⟩ => rfl
  have e3 : idx_main_v24 (idx_main_v25 i) = ix1 (i 2) := funext fun a => by
    match a with | ⟨0, _⟩ => rfl
  rw [e3]
  exact congrArg (· + x5 (ix1 (i 2))) (Finset.sum_congr rfl fun k _ => by rw [e1, e2]; rfl)

/-- The incoming aggregation: each graph's first 200 adjacency columns applied to its first edge map, plus a bias. -/
theorem stage_v13 : val_main_v13 (F := Ideal) x0 x1 x6 x8 x9 = agg (half 0 (by omega) x0) (lin x1 x8 x9) x6 := by
  funext i
  rw [val_main_v13_apply, val_main_v10_apply, val_main_v12_apply, val_main_v11_apply, stage_v5]
  show (∑ k : Fin 200, val_main_v0 (F := Ideal) x0 (lidx_main_v10 i k) * lin x1 x8 x9 (ridx_main_v10 i k))
      + x6 (idx_main_v11 (idx_main_v12 i))
    = (∑ k : Fin 200, half 0 (by omega) x0 (ix3 (i 0) (i 1) k) * lin x1 x8 x9 (ix3 (i 0) k (i 2))) + x6 (ix1 (i 2))
  have e1 : ∀ k : Fin 200, val_main_v0 (F := Ideal) x0 (lidx_main_v10 i k) = half 0 (by omega) x0 (ix3 (i 0) (i 1) k) := fun k => by
    rw [val_main_v0_apply]
    exact congrArg x0 (funext fun a => Fin.ext (by
      match a with
      | ⟨0, _⟩ => rfl
      | ⟨1, _⟩ => rfl
      | ⟨2, _⟩ => show k.val = 0 + k.val; omega))
  have e2 : ∀ k : Fin 200, ridx_main_v10 i k = ix3 (i 0) k (i 2) := fun k => funext fun a => by
    match a with | ⟨0, _⟩ => rfl | ⟨1, _⟩ => rfl | ⟨2, _⟩ => rfl
  have e3 : idx_main_v11 (idx_main_v12 i) = ix1 (i 2) := funext fun a => by
    match a with | ⟨0, _⟩ => rfl
  rw [e3]
  exact congrArg (· + x6 (ix1 (i 2))) (Finset.sum_congr rfl fun k _ => by rw [e1, e2]; rfl)

/-- The outgoing aggregation: the last 200 adjacency columns applied to the second edge map, plus a bias. -/
theorem stage_v17 : val_main_v17 (F := Ideal) x0 x1 x7 x10 x11 = agg (half 200 (by omega) x0) (lin x1 x10 x11) x7 := by
  funext i
  rw [val_main_v17_apply, val_main_v14_apply, val_main_v16_apply, val_main_v15_apply, stage_v9]
  show (∑ k : Fin 200, val_main_v1 (F := Ideal) x0 (lidx_main_v14 i k) * lin x1 x10 x11 (ridx_main_v14 i k))
      + x7 (idx_main_v15 (idx_main_v16 i))
    = (∑ k : Fin 200, half 200 (by omega) x0 (ix3 (i 0) (i 1) k) * lin x1 x10 x11 (ix3 (i 0) k (i 2))) + x7 (ix1 (i 2))
  have e1 : ∀ k : Fin 200, val_main_v1 (F := Ideal) x0 (lidx_main_v14 i k) = half 200 (by omega) x0 (ix3 (i 0) (i 1) k) := fun k => by
    rw [val_main_v1_apply]
    exact congrArg x0 (funext fun a => Fin.ext (by
      match a with
      | ⟨0, _⟩ => rfl
      | ⟨1, _⟩ => rfl
      | ⟨2, _⟩ => rfl))
  have e2 : ∀ k : Fin 200, ridx_main_v14 i k = ix3 (i 0) k (i 2) := fun k => funext fun a => by
    match a with | ⟨0, _⟩ => rfl | ⟨1, _⟩ => rfl | ⟨2, _⟩ => rfl
  have e3 : idx_main_v15 (idx_main_v16 i) = ix1 (i 2) := funext fun a => by
    match a with | ⟨0, _⟩ => rfl
  rw [e3]
  exact congrArg (· + x7 (ix1 (i 2))) (Finset.sum_congr rfl fun k _ => by rw [e1, e2]; rfl)

/-- The two aggregations side by side: columns 0–127 are the incoming one, columns 128–255 the outgoing one. -/
theorem stage_v18 : val_main_v18 (F := Ideal) x0 x1 x6 x7 x8 x9 x10 x11
    = cat (val_main_v13 (F := Ideal) x0 x1 x6 x8 x9) (val_main_v17 (F := Ideal) x0 x1 x7 x10 x11) := by
  funext i
  unfold val_main_v18 cat
  by_cases hlt : (i 2).val < 128
  · rw [dif_pos hlt]
    exact concatenate_pair_apply_left (s₁ := S1024x200x128) (s₂ := S1024x200x128) 2 _ _ _ i rfl
      (ix3 (i 0) (i 1) ⟨(i 2).val, hlt⟩) (fun b => by
        match b with | ⟨0, _⟩ => rfl | ⟨1, _⟩ => rfl | ⟨2, _⟩ => rfl)
  · rw [dif_neg hlt]
    have h2 : (i 2).val < 256 := (i 2).isLt
    exact concatenate_pair_apply_right (s₁ := S1024x200x128) (s₂ := S1024x200x128) 2 _ _ _ i rfl rfl
      (ix3 (i 0) (i 1) ⟨(i 2).val - 128, by omega⟩) (fun b hb => by
        match b, hb with
        | ⟨0, _⟩, _ => rfl
        | ⟨1, _⟩, _ => rfl
        | ⟨2, _⟩, hb => exact absurd rfl hb)
      (by show ((i 2).val - 128) + 128 = (i 2).val; omega)

/-- The input gate map: 384 gate columns from the 256 aggregated features. -/
theorem stage_v22 : val_main_v22 (F := Ideal) x0 x1 x2 x4 x6 x7 x8 x9 x10 x11
    = lin (cat (val_main_v13 (F := Ideal) x0 x1 x6 x8 x9) (val_main_v17 (F := Ideal) x0 x1 x7 x10 x11)) x2 x4 := by
  funext i
  rw [val_main_v22_apply, val_main_v19_apply, val_main_v21_apply, val_main_v20_apply, stage_v18]
  generalize cat (val_main_v13 (F := Ideal) x0 x1 x6 x8 x9) (val_main_v17 (F := Ideal) x0 x1 x7 x10 x11) = y
  show (∑ k : Fin 256, y (lidx_main_v19 i k) * x2 (ridx_main_v19 i k)) + x4 (idx_main_v20 (idx_main_v21 i))
    = (∑ k : Fin 256, y (ix3 (i 0) (i 1) k) * x2 (ix2 (i 2) k)) + x4 (ix1 (i 2))
  have e1 : ∀ k : Fin 256, lidx_main_v19 i k = ix3 (i 0) (i 1) k := fun k => funext fun a => by
    match a with | ⟨0, _⟩ => rfl | ⟨1, _⟩ => rfl | ⟨2, _⟩ => rfl
  have e2 : ∀ k : Fin 256, ridx_main_v19 i k = ix2 (i 2) k := fun k => funext fun a => by
    match a with | ⟨0, _⟩ => rfl | ⟨1, _⟩ => rfl
  have e3 : idx_main_v20 (idx_main_v21 i) = ix1 (i 2) := funext fun a => by
    match a with | ⟨0, _⟩ => rfl
  rw [e3]
  exact congrArg (· + x4 (ix1 (i 2))) (Finset.sum_congr rfl fun k _ => by rw [e1, e2]; rfl)

/-- The f32 word 0x3F800000 denotes the extended real one. -/
theorem one_word : Ideal.ofBits .f32 0x3F800000#32 = 1 := IdealRules.sign_bit.ideal_onePat .f32

/-- The program's spelling of the logistic function, 1 / (1 + exp (−w)) with both ones the f32 word of one. -/
theorem logistic_spelled (w : Ideal .f32) :
    FloatOps.hostDivf (F := Ideal) (FloatOps.ofBits .f32 0x3F800000#32)
      (FloatOps.addf (FloatOps.ofBits .f32 0x3F800000#32) (FloatOps.hostUnary .exp (FloatOps.hostNegf w)))
      = Ideal.logistic w := by
  show Ideal.div (Ideal.ofBits .f32 0x3F800000#32) (Ideal.ofBits .f32 0x3F800000#32 + Ideal.exp (-w)) = Ideal.logistic w
  rw [one_word]
  rfl

/-- The reset gate: the logistic function of the sum of the two gate maps' columns 0–127, spelled in the program
    as 1 / (1 + exp (−·)). -/
theorem stage_v39 (i : S1024x200x128.Idx) : val_main_v39 (F := Ideal) x0 x1 x2 x3 x4 x5 x6 x7 x8 x9 x10 x11 i
    = Ideal.logistic (val_main_v22 (F := Ideal) x0 x1 x2 x4 x6 x7 x8 x9 x10 x11 (ix3 (i 0) (i 1) (col 0 (by omega) (i 2)))
        + val_main_v26 (F := Ideal) x1 x3 x5 (ix3 (i 0) (i 1) (col 0 (by omega) (i 2)))) := by
  rw [val_main_v39_apply, val_main_v38_apply, val_main_cst_0_apply, val_main_v37_apply, val_main_v36_apply,
    val_main_cst_apply, val_main_v35_apply, val_main_v34_apply, val_main_v33_apply, val_main_v27_apply, val_main_v30_apply]
  have e27 : idx_main_v27 i = ix3 (i 0) (i 1) (col 0 (by omega) (i 2)) := funext fun a => Fin.ext (by
    match a with
    | ⟨0, _⟩ => rfl
    | ⟨1, _⟩ => rfl
    | ⟨2, _⟩ => show (i 2).val = 0 + (i 2).val; omega)
  have e30 : idx_main_v30 i = ix3 (i 0) (i 1) (col 0 (by omega) (i 2)) := funext fun a => Fin.ext (by
    match a with
    | ⟨0, _⟩ => rfl
    | ⟨1, _⟩ => rfl
    | ⟨2, _⟩ => show (i 2).val = 0 + (i 2).val; omega)
  rw [e27, e30]
  exact logistic_spelled _

/-- The update gate: the logistic function of the sum of the two gate maps' columns 128–255. -/
theorem stage_v46 (i : S1024x200x128.Idx) : val_main_v46 (F := Ideal) x0 x1 x2 x3 x4 x5 x6 x7 x8 x9 x10 x11 i
    = Ideal.logistic (val_main_v22 (F := Ideal) x0 x1 x2 x4 x6 x7 x8 x9 x10 x11 (ix3 (i 0) (i 1) (col 128 (by omega) (i 2)))
        + val_main_v26 (F := Ideal) x1 x3 x5 (ix3 (i 0) (i 1) (col 128 (by omega) (i 2)))) := by
  rw [val_main_v46_apply, val_main_v45_apply, val_main_cst_2_apply, val_main_v44_apply, val_main_v43_apply,
    val_main_cst_1_apply, val_main_v42_apply, val_main_v41_apply, val_main_v40_apply, val_main_v28_apply, val_main_v31_apply]
  have e28 : idx_main_v28 i = ix3 (i 0) (i 1) (col 128 (by omega) (i 2)) := funext fun a => Fin.ext (by
    match a with
    | ⟨0, _⟩ => rfl
    | ⟨1, _⟩ => rfl
    | ⟨2, _⟩ => rfl)
  have e31 : idx_main_v31 i = ix3 (i 0) (i 1) (col 128 (by omega) (i 2)) := funext fun a => Fin.ext (by
    match a with
    | ⟨0, _⟩ => rfl
    | ⟨1, _⟩ => rfl
    | ⟨2, _⟩ => rfl)
  rw [e28, e31]
  exact logistic_spelled _

/-- The candidate state: the hyperbolic tangent of the input map's columns 256–383 plus the reset gate times the
    hidden map's columns 256–383. -/
theorem stage_v49 (i : S1024x200x128.Idx) : val_main_v49 (F := Ideal) x0 x1 x2 x3 x4 x5 x6 x7 x8 x9 x10 x11 i
    = Ideal.tanh (val_main_v22 (F := Ideal) x0 x1 x2 x4 x6 x7 x8 x9 x10 x11 (ix3 (i 0) (i 1) (col 256 (by omega) (i 2)))
        + val_main_v39 (F := Ideal) x0 x1 x2 x3 x4 x5 x6 x7 x8 x9 x10 x11 i
          * val_main_v26 (F := Ideal) x1 x3 x5 (ix3 (i 0) (i 1) (col 256 (by omega) (i 2)))) := by
  rw [val_main_v49_apply, val_main_v48_apply, val_main_v47_apply, val_main_v29_apply, val_main_v32_apply]
  have e29 : idx_main_v29 i = ix3 (i 0) (i 1) (col 256 (by omega) (i 2)) := funext fun a => Fin.ext (by
    match a with
    | ⟨0, _⟩ => rfl
    | ⟨1, _⟩ => rfl
    | ⟨2, _⟩ => rfl)
  have e32 : idx_main_v32 i = ix3 (i 0) (i 1) (col 256 (by omega) (i 2)) := funext fun a => Fin.ext (by
    match a with
    | ⟨0, _⟩ => rfl
    | ⟨1, _⟩ => rfl
    | ⟨2, _⟩ => rfl)
  rw [e29, e32]
  rfl

/-- The gates and the new state, over the two gate maps and the node features. -/
theorem stage_v52 : val_main_v52 (F := Ideal) x0 x1 x2 x3 x4 x5 x6 x7 x8 x9 x10 x11
    = gates (val_main_v22 (F := Ideal) x0 x1 x2 x4 x6 x7 x8 x9 x10 x11) (val_main_v26 (F := Ideal) x1 x3 x5) x1 := by
  funext i
  rw [val_main_v52_apply, val_main_v51_apply, val_main_v50_apply, stage_v46, stage_v49, stage_v39]
  obtain ⟨b, l, n, rfl⟩ : ∃ b l n, i = ix3 b l n := ⟨i 0, i 1, i 2, eq_ix3 i⟩
  rfl

end Stages

/-- The reference's last stage, as a function of its twelve arguments, is one step of the cell on the batch of 1024:
    the adjacency's two halves, the two edge maps, the two aggregations side by side, the two gate maps, the gates. -/
theorem ref_is_cell (x0 : (⟨S1024x200x400, .f32⟩ : BufTy).Contents (Elt Ideal)) (x1 : (⟨S1024x200x128, .f32⟩ : BufTy).Contents (Elt Ideal))
    (x2 : (⟨S384x256, .f32⟩ : BufTy).Contents (Elt Ideal)) (x3 : (⟨S384x128, .f32⟩ : BufTy).Contents (Elt Ideal))
    (x4 x5 : (⟨S384, .f32⟩ : BufTy).Contents (Elt Ideal)) (x6 x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v52 (F := Ideal) x0 x1 x2 x3 x4 x5 x6 x7 x8 x9 x10 x11
      = cell (B := 1024) (half 0 (by omega) x0) (half 200 (by omega) x0) x1 x2 x3 x4 x5 x6 x7 x8 x9 x10 x11 := by
  unfold cell
  rw [stage_v52, stage_v22, stage_v26, stage_v13, stage_v17]

end Cert.ReferenceIdeal.RefValue

end
-- ==== Proof.lean ====
/- The certificate of one step of a gated graph cell.

   The kernel runs on a grid of 128 points; point t loads graphs 8t … 8t+7 of the two adjacency halves and of the
   node states, and every weight and bias whole, and stores the new node states of those eight graphs: the edge
   maps h · W_einᵀ + b_ein and h · W_eoutᵀ + b_eout, the aggregations a_in · e_in + b_iah and a_out · e_out + b_oah
   graph by graph, the two side by side through w_ihᵀ, the states through w_hhᵀ, and the gates
   r = σ(i_r + h_r), z = σ(i_z + h_z), n = tanh(i_n + r · h_n), h' = n + z · (h − n).
   The reference computes the same on the whole batch of 1024 graphs with einsums on the host.

   Over the extended reals a change of float format is the identity, a matrix product into a zero accumulator
   and the host's dot_general are the same sum over the contracted index, and σ is 1 / (1 + e^(−x)) on both
   sides, so each side is literally the cell of Proof/Spec.lean: the reference on the batch of 1024
   (Proof/RefCell.lean), the kernel's body on each block of eight graphs (Proof/BodyMessages.lean,
   Proof/BodyGates.lean).  No stage of the cell mixes two graphs, so the cell on graphs 8t … 8t+7 is rows
   8t … 8t+7 of the cell on the batch, and the 128 blocks tile the result (Proof/KernelRun.lean).  No
   algebraic law beyond that is used, and none that would need the inputs to be finite.

   The three frames: the kernel's two are its generated frame runs; the reference's is its generated run with
   the result dropped.  The idealization rewrote no operation, so it preserves the kernel trivially. -/
import proofs.«142575_j24060406792471_1_alg».proof.Defs
import proofs.«142575_j24060406792471_1_alg».proof.Proof.Gen.Kernel
import proofs.«142575_j24060406792471_1_alg».proof.Proof.Gen.Kernel.Skeleton
import proofs.«142575_j24060406792471_1_alg».proof.Proof.Gen.Kernel.Launch
import proofs.«142575_j24060406792471_1_alg».proof.Proof.Gen.Kernel.Points
import proofs.«142575_j24060406792471_1_alg».proof.Proof.Gen.Kernel.Frame
import proofs.«142575_j24060406792471_1_alg».proof.Proof.Gen.KernelIdeal
import proofs.«142575_j24060406792471_1_alg».proof.Proof.Gen.KernelIdeal.Skeleton
import proofs.«142575_j24060406792471_1_alg».proof.Proof.Gen.KernelIdeal.Launch
import proofs.«142575_j24060406792471_1_alg».proof.Proof.Gen.KernelIdeal.Points
import proofs.«142575_j24060406792471_1_alg».proof.Proof.Gen.KernelIdeal.Frame
import proofs.«142575_j24060406792471_1_alg».proof.Proof.Gen.ReferenceIdeal
import proofs.«142575_j24060406792471_1_alg».proof.Proof.Gen.Pre_finite_inputs
import proofs.«142575_j24060406792471_1_alg».proof.Proof.Gen.KernelIdeal.Value
import proofs.«142575_j24060406792471_1_alg».proof.Proof.Gen.ReferenceIdeal.Run
import proofs.«142575_j24060406792471_1_alg».proof.Proof.Gen.ReferenceIdeal.Read
import proofs.«142575_j24060406792471_1_alg».proof.Proof.KernelRun
import proofs.«142575_j24060406792471_1_alg».proof.Proof.RefCell
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twelve arguments both programs end with the result array at the cell of the
    arguments: the kernel's blocks tile it, the reference's last stage is it. -/
theorem algebraic : Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v52_eq, Cert.ReferenceIdeal.RefValue.ref_is_cell,
    a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
